-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S3 : Shape := ⟨1, ![3]⟩
abbrev S_ : Shape := ⟨0, ![]⟩
abbrev S33550336x2 : Shape := ⟨2, ![33550336, 2]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S3 : S_.BroadcastsInDim S3 (![] : Fin 0 → Fin S3.rank)
  reducesTo_S3_S_d0 : S3.ReducesTo [0] S_
  reducesTo_S_S_d : S_.ReducesTo [] S_
  bcast_S_S33550336x2 : S_.BroadcastsInDim S33550336x2 (![] : Fin 0 → Fin S33550336x2.rank)
  reducesTo_S33550336x2_S_d0_1 : S33550336x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x3 .f32) (main_arg1 : FVec F S3 .f32) (main_arg2 : FVec F S_ .f32) (main_arg3 : IVec S33550336x2 32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S33550336x2 32 := broadcastInDim S33550336x2 ![] bcast_S_S33550336x2 main_c_4
  let main_v14 : IVec S33550336x2 1 := cmpi .sge main_arg3 main_v13
  let main_c_5 : IVec S_ 1 := constantI S_ 1 1#1
  let main_v15 : IVec S_ 1 := (fun x v => Host.reduce IntOp.andi x v reducesTo_S33550336x2_S_d0_1 h_S_) main_v14 main_c_5
  fn_part1 (F := F) main_v12 main_v15
-- ==== Kernel.lean ====
abbrev S8192x3 : Shape := ⟨2, ![8192, 3]⟩
abbrev S3 : Shape := ⟨1, ![3]⟩
abbrev S_ : Shape := ⟨0, ![]⟩
abbrev S33550336x2 : Shape := ⟨2, ![33550336, 2]⟩
abbrev S33550336x1 : Shape := ⟨2, ![33550336, 1]⟩
abbrev S33550336 : Shape := ⟨1, ![33550336]⟩
abbrev S3x8192 : Shape := ⟨2, ![3, 8192]⟩
abbrev S3x33550336 : Shape := ⟨2, ![3, 33550336]⟩
abbrev S3x1 : Shape := ⟨2, ![3, 1]⟩
abbrev S1x1 : Shape := ⟨2, ![1, 1]⟩
abbrev S1x33550336 : Shape := ⟨2, ![1, 33550336]⟩
abbrev S3x131072 : Shape := ⟨2, ![3, 131072]⟩
abbrev S1x131072 : Shape := ⟨2, ![1, 131072]⟩
abbrev S131072 : Shape := ⟨1, ![131072]⟩

abbrev nBuf : Space → Nat
  | .hbm => 32
  | .vmem => 9
  | .smem => 0
  | _ => 0

abbrev bufTy : (tb : Table) → Fin (tcTables nBuf tb) → BufTy
  | .hbm, ⟨0, _⟩ => ⟨S8192x3, .f32⟩
  | .hbm, ⟨1, _⟩ => ⟨S3, .f32⟩
  | .hbm, ⟨2, _⟩ => ⟨S_, .f32⟩
  | .hbm, ⟨3, _⟩ => ⟨S33550336x2, .i32⟩
  | .hbm, ⟨4, _⟩ => ⟨S33550336x1, .i32⟩
  | .hbm, ⟨5, _⟩ => ⟨S33550336, .i32⟩
  | .hbm, ⟨6, _⟩ => ⟨S33550336x1, .i32⟩
  | .hbm, ⟨7, _⟩ => ⟨S33550336, .i32⟩
  | .hbm, ⟨8, _⟩ => ⟨S3x8192, .f32⟩
  | .hbm, ⟨9, _⟩ => ⟨S33550336x1, .i32⟩
  | .hbm, ⟨10, _⟩ => ⟨S3x33550336, .f32⟩
  | .hbm, ⟨11, _⟩ => ⟨S33550336x1, .i32⟩
  | .hbm, ⟨12, _⟩ => ⟨S3x33550336, .f32⟩
  | .hbm, ⟨13, _⟩ => ⟨S3x1, .f32⟩
  | .hbm, ⟨14, _⟩ => ⟨S_, .f32⟩
  | .hbm, ⟨15, _⟩ => ⟨S3, .f32⟩
  | .hbm, ⟨16, _⟩ => ⟨S3, .f32⟩
  | .hbm, ⟨17, _⟩ => ⟨S3x1, .f32⟩
  | .hbm, ⟨18, _⟩ => ⟨S1x1, .f32⟩
  | .hbm, ⟨19, _⟩ => ⟨S1x33550336, .i32⟩
  | .hbm, ⟨20, _⟩ => ⟨S33550336, .i32⟩
  | .hbm, ⟨21, _⟩ => ⟨S_, .i32⟩
  | .hbm, ⟨22, _⟩ => ⟨S33550336, .i32⟩
  | .hbm, ⟨23, _⟩ => ⟨S33550336, .i1⟩
  | .hbm, ⟨24, _⟩ => ⟨S33550336x1, .i1⟩
  | .hbm, ⟨25, _⟩ => ⟨S_, .i32⟩
  | .hbm, ⟨26, _⟩ => ⟨S33550336x2, .i1⟩
  | .hbm, ⟨27, _⟩ => ⟨S33550336x2, .i32⟩
  | .hbm, ⟨28, _⟩ => ⟨S33550336x2, .i32⟩
  | .hbm, ⟨29, _⟩ => ⟨S33550336, .i32⟩
  | .hbm, ⟨30, _⟩ => ⟨S_, .i32⟩
  | .hbm, ⟨31, _⟩ => ⟨S_, .i32⟩
  | .local _ .vmem, ⟨0, _⟩ => ⟨S3x131072, .f32⟩
  | .local _ .vmem, ⟨1, _⟩ => ⟨S3x131072, .f32⟩
  | .local _ .vmem, ⟨2, _⟩ => ⟨S3x131072, .f32⟩
  | .local _ .vmem, ⟨3, _⟩ => ⟨S3x131072, .f32⟩
  | .local _ .vmem, ⟨4, _⟩ => ⟨S3x1, .f32⟩
  | .local _ .vmem, ⟨5, _⟩ => ⟨S3x1, .f32⟩
  | .local _ .vmem, ⟨6, _⟩ => ⟨S1x1, .f32⟩
  | .local _ .vmem, ⟨7, _⟩ => ⟨S1x131072, .i32⟩
  | .local _ .vmem, ⟨8, _⟩ => ⟨S1x131072, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_v5 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_call2_v0 : Ref sig .tc := ⟨.hbm, 26, rfl⟩
abbrev main_call2_v1 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x131072 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S33550336x2_S33550336x1_0_0 : S33550336x2.Slices ![0, 0] S33550336x1
  shapeCasts_S33550336x1_S33550336 : S33550336x1.ShapeCasts S33550336
  slices_S33550336x2_S33550336x1_0_1 : S33550336x2.Slices ![0, 1] S33550336x1
  transposes_S8192x3_S3x8192_1_0 : S8192x3.Transposes [1, 0] S3x8192
  bcast_S33550336_S33550336x1_0 : S33550336.BroadcastsInDim S33550336x1 (![0] : Fin 1 → Fin S33550336x1.rank)
  shapeCasts_S3_S3x1 : S3.ShapeCasts S3x1
  bcast_S_S3 : S_.BroadcastsInDim S3 (![] : Fin 0 → Fin S3.rank)
  shapeCasts_S_S1x1 : S_.ShapeCasts S1x1
  inb_S3x131072_S3x131072_0_0 : ∀ a, (![0, 0] : Fin 2 → Nat) a + S3x131072.size a ≤ S3x131072.size a
  h_S3x131072 : 0 < S3x131072.numel
  shapeCasts_S3x131072_S3x131072 : S3x131072.ShapeCasts S3x131072
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x131072 : S3x1.Broadcasts S3x131072
  reduces_S3x131072_S131072 : S3x131072.Reduces [0] S131072
  shapeCasts_S131072_S1x131072 : S131072.ShapeCasts S1x131072
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x131072 : S1x1.Broadcasts S1x131072
  natLt_1_32 : 1 < 32
  inb_S1x131072_S1x131072_0_0 : ∀ a, (![0, 0] : Fin 2 → Nat) a + S1x131072.size a ≤ S1x131072.size a
  h_S1x131072 : 0 < S1x131072.numel
  shapeCasts_S1x33550336_S33550336 : S1x33550336.ShapeCasts S33550336
  bcast_S_S33550336 : S_.BroadcastsInDim S33550336 (![] : Fin 0 → Fin S33550336.rank)
  bcast_S33550336x1_S33550336x2_0_1 : S33550336x1.BroadcastsInDim S33550336x2 (![0, 1] : Fin 2 → Fin S33550336x2.rank)
  bcast_S_S33550336x2 : S_.BroadcastsInDim S33550336x2 (![] : Fin 0 → Fin S33550336x2.rank)
  reducesTo_S33550336_S_d0 : S33550336.ReducesTo [0] S_
  h_S_ : 0 < S_.numel
  gather_S3x8192_S33550336x1_S3x33550336_0_1_n_n_1_1_31_wf : GatherDims.WF S3x8192 S33550336x1 S3x33550336 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x131072.size a < S3x33550336.size a
  hwx0_0 : ∀ i : grid0.Coords, EltTy.bits .f32 = 32 ∨ (Rect.unit (s := S3x33550336) (fun a => cc0_transform_0 i a * S3x131072.size a) (fun a => (Pipeline.Clip.of (cc0_transform_0 i a) (S3x131072.size a) (S3x33550336.size a)).extent (S3x131072.size a)) fun a => Pipeline.Clip.inb (Pipeline.Clip.ok_of (hstart0_0 i a))).WholeWords (EltTy.packing .f32)
  hwxs0_0 : ∀ i : grid0.Coords, EltTy.bits .f32 = 32 ∨ (Rect.unit (s := S3x131072) (fun _ => 0) (fun a => (Pipeline.Clip.of (cc0_transform_0 i a) (S3x131072.size a) (S3x33550336.size a)).extent (S3x131072.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3x131072.size a < S3x33550336.size a
  hwx0_1 : ∀ i : grid0.Coords, EltTy.bits .f32 = 32 ∨ (Rect.unit (s := S3x33550336) (fun a => cc0_transform_1 i a * S3x131072.size a) (fun a => (Pipeline.Clip.of (cc0_transform_1 i a) (S3x131072.size a) (S3x33550336.size a)).extent (S3x131072.size a)) fun a => Pipeline.Clip.inb (Pipeline.Clip.ok_of (hstart0_1 i a))).WholeWords (EltTy.packing .f32)
  hwxs0_1 : ∀ i : grid0.Coords, EltTy.bits .f32 = 32 ∨ (Rect.unit (s := S3x131072) (fun _ => 0) (fun a => (Pipeline.Clip.of (cc0_transform_1 i a) (S3x131072.size a) (S3x33550336.size a)).extent (S3x131072.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1.size a ≤ S3x1.size a
  hwx0_2 : ∀ i : grid0.Coords, EltTy.bits .f32 = 32 ∨ (Rect.block (s := S3x1) S3x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1.size a ≤ S3x1.size a
  hwx0_3 : ∀ i : grid0.Coords, EltTy.bits .f32 = 32 ∨ (Rect.block (s := S3x1) S3x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x131072.size a < S1x33550336.size a
  hwx0_5 : ∀ i : grid0.Coords, EltTy.bits .i32 = 32 ∨ (Rect.unit (s := S1x33550336) (fun a => cc0_transform_5 i a * S1x131072.size a) (fun a => (Pipeline.Clip.of (cc0_transform_5 i a) (S1x131072.size a) (S1x33550336.size a)).extent (S1x131072.size a)) fun a => Pipeline.Clip.inb (Pipeline.Clip.ok_of (hstart0_5 i a))).WholeWords (EltTy.packing .i32)
  hwxs0_5 : ∀ i : grid0.Coords, EltTy.bits .i32 = 32 ∨ (Rect.unit (s := S1x131072) (fun _ => 0) (fun a => (Pipeline.Clip.of (cc0_transform_5 i a) (S1x131072.size a) (S1x33550336.size a)).extent (S1x131072.size a)) fun a => (Nat.zero_add _).trans_le (Pipeline.Clip.extent_le (Pipeline.Clip.ok_of (hstart0_5 i a)))).WholeWords (EltTy.packing .i32)

variable [Facts₀]

def gather_S3x8192_S33550336x1_S3x33550336_0_1_n_n_1_1_31 : GatherDims S3x8192 S33550336x1 S3x33550336 where
  offsetDims := [0]
  collapsedSliceDims := [1]
  operandBatchingDims := []
  startIndicesBatchingDims := []
  startIndexMap := [1]
  indexVectorDim := 1
  sliceSizes := ![3, 1]
  wf := gather_S3x8192_S33550336x1_S3x33550336_0_1_n_n_1_1_31_wf

abbrev win0_0 : Pipeline.Window sig grid0 :=
  Pipeline.Window.ofSpecClip (Memref.whole main_v5) S3x131072.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v6) S3x131072.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v7) S3x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S3x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v12) S1x131072.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x3 : Shape := ⟨2, ![8192, 3]⟩
abbrev S3 : Shape := ⟨1, ![3]⟩
abbrev S_ : Shape := ⟨0, ![]⟩
abbrev S33550336x2 : Shape := ⟨2, ![33550336, 2]⟩
abbrev S33550336x1 : Shape := ⟨2, ![33550336, 1]⟩
abbrev S33550336 : Shape := ⟨1, ![33550336]⟩
abbrev S33550336x3 : Shape := ⟨2, ![33550336, 3]⟩
abbrev S1x3 : Shape := ⟨2, ![1, 3]⟩

abbrev nBuf : Space → Nat
  | .hbm => 49
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S3, .f32⟩
  | .hbm, ⟨2, _⟩ => ⟨S_, .f32⟩
  | .hbm, ⟨3, _⟩ => ⟨S33550336x2, .i32⟩
  | .hbm, ⟨4, _⟩ => ⟨S33550336x1, .i32⟩
  | .hbm, ⟨5, _⟩ => ⟨S33550336, .i32⟩
  | .hbm, ⟨6, _⟩ => ⟨S_, .i32⟩
  | .hbm, ⟨7, _⟩ => ⟨S33550336, .i32⟩
  | .hbm, ⟨8, _⟩ => ⟨S33550336, .i1⟩
  | .hbm, ⟨9, _⟩ => ⟨S_, .i32⟩
  | .hbm, ⟨10, _⟩ => ⟨S33550336, .i32⟩
  | .hbm, ⟨11, _⟩ => ⟨S33550336, .i32⟩
  | .hbm, ⟨12, _⟩ => ⟨S33550336, .i32⟩
  | .hbm, ⟨13, _⟩ => ⟨S33550336x1, .i32⟩
  | .hbm, ⟨14, _⟩ => ⟨S33550336x3, .f32⟩
  | .hbm, ⟨15, _⟩ => ⟨S33550336x1, .i32⟩
  | .hbm, ⟨16, _⟩ => ⟨S33550336, .i32⟩
  | .hbm, ⟨17, _⟩ => ⟨S_, .i32⟩
  | .hbm, ⟨18, _⟩ => ⟨S33550336, .i32⟩
  | .hbm, ⟨19, _⟩ => ⟨S33550336, .i1⟩
  | .hbm, ⟨20, _⟩ => ⟨S_, .i32⟩
  | .hbm, ⟨21, _⟩ => ⟨S33550336, .i32⟩
  | .hbm, ⟨22, _⟩ => ⟨S33550336, .i32⟩
  | .hbm, ⟨23, _⟩ => ⟨S33550336, .i32⟩
  | .hbm, ⟨24, _⟩ => ⟨S33550336x1, .i32⟩
  | .hbm, ⟨25, _⟩ => ⟨S33550336x3, .f32⟩
  | .hbm, ⟨26, _⟩ => ⟨S33550336x3, .f32⟩
  | .hbm, ⟨27, _⟩ => ⟨S1x3, .f32⟩
  | .hbm, ⟨28, _⟩ => ⟨S33550336x3, .f32⟩
  | .hbm, ⟨29, _⟩ => ⟨S33550336x3, .f32⟩
  | .hbm, ⟨30, _⟩ => ⟨S33550336x3, .f32⟩
  | .hbm, ⟨31, _⟩ => ⟨S1x3, .f32⟩
  | .hbm, ⟨32, _⟩ => ⟨S33550336x3, .f32⟩
  | .hbm, ⟨33, _⟩ => ⟨S33550336x3, .f32⟩
  | .hbm, ⟨34, _⟩ => ⟨S33550336x3, .f32⟩
  | .hbm, ⟨35, _⟩ => ⟨S33550336x3, .f32⟩
  | .hbm, ⟨36, _⟩ => ⟨S_, .f32⟩
  | .hbm, ⟨37, _⟩ => ⟨S33550336, .f32⟩
  | .hbm, ⟨38, _⟩ => ⟨S33550336, .f32⟩
  | .hbm, ⟨39, _⟩ => ⟨S33550336, .f32⟩
  | .hbm, ⟨40, _⟩ => ⟨S33550336, .i1⟩
  | .hbm, ⟨41, _⟩ => ⟨S33550336x1, .i1⟩
  | .hbm, ⟨42, _⟩ => ⟨S_, .i32⟩
  | .hbm, ⟨43, _⟩ => ⟨S33550336x2, .i1⟩
  | .hbm, ⟨44, _⟩ => ⟨S33550336x2, .i32⟩
  | .hbm, ⟨45, _⟩ => ⟨S33550336x2, .i32⟩
  | .hbm, ⟨46, _⟩ => ⟨S33550336, .i32⟩
  | .hbm, ⟨47, _⟩ => ⟨S_, .i32⟩
  | .hbm, ⟨48, _⟩ => ⟨S_, .i32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_call2_v0 : Ref sig .tc := ⟨.hbm, 43, rfl⟩
abbrev main_call2_v1 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  slices_S33550336x2_S33550336x1_0_1 : S33550336x2.Slices ![0, 1] S33550336x1
  shapeCasts_S33550336x1_S33550336 : S33550336x1.ShapeCasts S33550336
  bcast_S_S33550336 : S_.BroadcastsInDim S33550336 (![] : Fin 0 → Fin S33550336.rank)
  bcast_S33550336_S33550336x1_0 : S33550336.BroadcastsInDim S33550336x1 (![0] : Fin 1 → Fin S33550336x1.rank)
  slices_S33550336x2_S33550336x1_0_0 : S33550336x2.Slices ![0, 0] S33550336x1
  bcast_S3_S1x3_1 : S3.BroadcastsInDim S1x3 (![1] : Fin 1 → Fin S1x3.rank)
  bcast_S1x3_S33550336x3_0_1 : S1x3.BroadcastsInDim S33550336x3 (![0, 1] : Fin 2 → Fin S33550336x3.rank)
  reducesTo_S33550336x3_S33550336_d1 : S33550336x3.ReducesTo [1] S33550336
  h_S_ : 0 < S_.numel
  bcast_S33550336x1_S33550336x2_0_1 : S33550336x1.BroadcastsInDim S33550336x2 (![0, 1] : Fin 2 → Fin S33550336x2.rank)
  bcast_S_S33550336x2 : S_.BroadcastsInDim S33550336x2 (![] : Fin 0 → Fin S33550336x2.rank)
  natLt_1_32 : 1 < 32
  reducesTo_S33550336_S_d0 : S33550336.ReducesTo [0] S_
  gather_S8192x3_S33550336x1_S33550336x3_1_0_n_n_0_1_13_wf : GatherDims.WF S8192x3 S33550336x1 S33550336x3 [1] [0] [] [0] [] 1 ![1, 3]

variable [Facts₀]

def gather_S8192x3_S33550336x1_S33550336x3_1_0_n_n_0_1_13 : GatherDims S8192x3 S33550336x1 S33550336x3 where
  offsetDims := [1]
  collapsedSliceDims := [0]
  operandBatchingDims := []
  startIndicesBatchingDims := []
  startIndexMap := [0]
  indexVectorDim := 1
  sliceSizes := ![1, 3]
  wf := gather_S8192x3_S33550336x1_S33550336x3_1_0_n_n_0_1_13_wf

class Facts : Prop extends Facts₀ where

variable [Facts]
-- ==== Proof.KTriple.lean ====
/-
  One grid point of the neighbour kernel as a Hoare triple, for any float instance: from the six staging buffers at
  known contents (the two atom blocks, the box lengths, their reciprocals, the cutoff) and the mask buffer at any
  contents, the body loads the five inputs whole, computes, and overwrites the whole mask buffer with ONE function of
  what it loaded; the five input buffers end as they were.
-/
import proofs.«408253_j46969762349284_3_alg».proof.Proof.Gen.Kernel.Frame
import proofs.«408253_j46969762349284_3_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one is the whole buffer -/

abbrev rAtoms : Rect S3x131072 := Rect.unit (s := S3x131072) ![0, 0] S3x131072.size inb_S3x131072_S3x131072_0_0
abbrev rBox : Rect S3x1 := Rect.unit (s := S3x1) ![0, 0] S3x1.size inb_S3x1_S3x1_0_0
abbrev rCut : Rect S1x1 := Rect.unit (s := S1x1) ![0, 0] S1x1.size inb_S1x1_S1x1_0_0
abbrev rMask : Rect S1x131072 := Rect.unit (s := S1x131072) ![0, 0] S1x131072.size inb_S1x131072_S1x131072_0_0

/-- What the mask buffer holds after the body, from the contents of the five input buffers (first atoms' block,
    second atoms' block, box, reciprocal box, cutoff): the one store's payload, written through the whole buffer. -/
def maskOut (x0 x1 : Vec F S3x131072 .f32) (x2 x3 : Vec F S3x1 .f32) (x4 : Vec F S1x1 .f32) : Vec F S1x131072 .i32 :=
  View.canon [⟨rMask, k0_pay1 (View.ld x1 rAtoms) (View.ld x0 rAtoms) (View.ld x2 rBox) (View.ld x3 rBox) (View.ld x4 rCut)⟩]

/-- The one store covers the buffer. -/
theorem coverMask (p0 : Vec F S1x131072 .i32) (y : S1x131072.Idx) :
    ∃ pc ∈ ([⟨rMask, p0⟩] : List (View.Piece (Elt F) S1x131072 .i32)), y ∈ pc.1.set :=
  View.cover_of_tiled [⟨rMask, p0⟩] S1x131072.size (by rfl) y

set_option maxHeartbeats 1000000 in
/-- The body on whole staging memrefs. -/
theorem sound_kernel (c : Dev nD) (E : Set ℕ) (i : grid0.Coords)
    (arg1 : Memref sig .tc .vmem S3x131072 .f32) (harg1 : arg1.IsWhole) (arg2 : Memref sig .tc .vmem S3x131072 .f32) (harg2 : arg2.IsWhole)
    (arg3 : Memref sig .tc .vmem S3x1 .f32) (harg3 : arg3.IsWhole) (arg4 : Memref sig .tc .vmem S3x1 .f32) (harg4 : arg4.IsWhole)
    (arg5 : Memref sig .tc .vmem S1x1 .f32) (harg5 : arg5.IsWhole) (arg6 : Memref sig .tc .vmem S1x131072 .i32) (harg6 : arg6.IsWhole)
    (x0 x1 : Vec F S3x131072 .f32) (x2 x3 : Vec F S3x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (maskOut x0 x1 x2 x3 x4)) -∗ K ⟨⟩))
      ⊢ wp frame (wpE (defs₀ (F := F)) Variants.none c none) E (cc0__neighbor_kernel i arg1 harg1 arg2 harg2 arg3 harg3 arg4 harg4 arg5 harg5 arg6 harg6) K := by
  simp only [cc0__neighbor_kernel_eq_skeleton]; unfold cc0__neighbor_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverMask _)

end Cert.Kernel.Body

end
-- ==== Proof.KFrame.lean ====
/-
  The frame of the neighbour program, for any float instance: it runs to the end, faults nowhere and leaves its four
  argument arrays as they were.  The two atom blocks and the mask block overhang their arrays at the last grid point:
  there the fetch fills the staging buffer's tail with words nothing names, the body computes on them too, and the
  write-back drops that tail.  So what the mask buffer holds is not stated here at all (the frame does not read it);
  the input buffers are stated on the part inside the array.
-/
import proofs.«408253_j46969762349284_3_alg».proof.Proof.KTriple
import Idealize.ShloMosaic.Lib.Pipeline.Kit
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first atoms' block at point `t`, filled out past the array's end with the zero word. -/
def blk0 (c : Dev nD) (t : Fin cfg0.N) : (cfg0.win 0).block.Idx → Elt F (cfg0.win 0).elt :=
  (cfg0.win 0).fill (cfg0.grid.coords t) (fun _ => (Scalar.ofBits .f32 0#32 : Elt F .f32)) (iblk m c 0 t)
/-- The second atoms' block likewise. -/
def blk1 (c : Dev nD) (t : Fin cfg0.N) : (cfg0.win 1).block.Idx → Elt F (cfg0.win 1).elt :=
  (cfg0.win 1).fill (cfg0.grid.coords t) (fun _ => (Scalar.ofBits .f32 0#32 : Elt F .f32)) (iblk m c 1 t)

/-- The windows whose contents the frame does not name: the mask's. -/
abbrev forgetMask : Fin 6 → Bool := fun | 0 => false | 1 => false | 2 => false | 3 => false | 4 => false | 5 => true | ⟨_ + 6, h⟩ => absurd h (Nat.not_lt.2 (Nat.le_add_left _ _))

/-- The arrays as the region finds them; after the body each input buffer at its block; the mask buffer unnamed. -/
def fdats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => iblk m c 2 t
    | ⟨3, _⟩ => iblk m c 3 t
    | ⟨4, _⟩ => iblk m c 4 t
    | ⟨5, _⟩ => fun _ => (0#32 : BitVec 32)
  Φ _ := Pipeline.ΦA spec0 c
  q _ := fullShare
  owed _ := 0

theorem fA_eq (c : Dev nD) (w : Fin cfg0.W) : (fdats m 0 c).A w = V m c (Pipeline.arrRef spec0 w) := by
  dsimp only [fdats]
theorem fafter0 (c : Dev nD) (t : Fin cfg0.N) : (fdats m 0 c).after 0 t = blk0 m c t := by dsimp only [fdats]
theorem fafter1 (c : Dev nD) (t : Fin cfg0.N) : (fdats m 0 c).after 1 t = blk1 m c t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]

/-- The atom windows are fetched at every point: the body finds the block on the part inside the array. -/
theorem fbefore0 (c : Dev nD) (t : Fin cfg0.N) (d) :
    (fdats m 0 c).before 0 t d = (cfg0.win 0).fill (cfg0.grid.coords t) d (iblk m c 0 t) := by
  unfold Dat.before; rw [if_pos (fetch0_0 t)]; unfold Dat.fetched Dat.blockOf iblk; rw [fA_eq]
theorem fbefore1 (c : Dev nD) (t : Fin cfg0.N) (d) :
    (fdats m 0 c).before 1 t d = (cfg0.win 1).fill (cfg0.grid.coords t) d (iblk m c 1 t) := by
  unfold Dat.before; rw [if_pos (fetch0_1 t)]; unfold Dat.fetched Dat.blockOf iblk; rw [fA_eq]
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d
theorem fbefore4 (c : Dev nD) (t : Fin cfg0.N) (d) : (fdats m 0 c).before 4 t d = iblk m c 4 t :=
  before0_4_of m (fdats m 0 c) (fA_eq m c 4) (fafter4 m c) t d

/-! ## The body obligation -/

/-- What the body is called with at point `t`, the windows one by one: the mask's buffer at any contents, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ X, owns (c : Thread nD τ) (st0_5 t) fullShare X))

/-- and what it returns: the atom buffers stated on the part inside the array, the mask's at any contents. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare ((cfg0.win 0).fill (cfg0.grid.coords t) d ((cfg0.win 0).cut (cfg0.grid.coords t) ((fdats m 0 c).after 0 t))))
    ∗ (∃ d, owns (c : Thread nD τ) (st0_1 t) fullShare ((cfg0.win 1).fill (cfg0.grid.coords t) d ((cfg0.win 1).cut (cfg0.grid.coords t) ((fdats m 0 c).after 1 t))))
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ (∃ X, owns (c : Thread nD τ) (st0_5 t) fullShare X))

theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0, fbefore1, fbefore2, fbefore3, fbefore4]
  rw [show (fdats m 0 c).Φ t.succ = (fdats m 0 c).Φ t.castSucc from rfl,
    show (fdats m 0 c).owesAt () t.succ = (fdats m 0 c).owesAt () t.castSucc from rfl,
    fafter0, fafter1, fafter2, fafter3, fafter4]
  iintro ⟨HΦ, Ho, ⟨%d0, H0⟩, ⟨%d1, H1⟩, ⟨%d2, H2⟩, ⟨%d3, H3⟩, ⟨%d4, H4⟩, ⟨%X5, H5⟩⟩
  iapply (sound_kernel (F := F) c Set.univ (grid0.coords t) _ _ _ _ _ _ _ _ _ _ _ _
    ((cfg0.win 0).fill (cfg0.grid.coords t) d0 (iblk m c 0 t)) ((cfg0.win 1).fill (cfg0.grid.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    unfold blk0; rw [(cfg0.win 0).cut_fill]; iexact H0
  isplitl [H1]
  · iexists d1
    unfold blk1; rw [(cfg0.win 1).cut_fill]; iexact H1
  isplitl [H2]; · iexact H2
  isplitl [H3]; · iexact H3
  isplitl [H4]; · iexact H4
  iexists _; iexact H5

theorem fbody_obligation (c : Dev nD) :
    BodyObligationLoose (fdats (F := F) m 0 c) (defs₀ (F := F)) Variants.none () Set.univ forgetMask := fun t => by
  rw [bigSep_W0, bigSep_W0]
  exact fsound_body m c t

/-! ## The run and the frame -/

/-- Every buffer but the four arguments: what the lines after the region may write. -/
def notArgs : Finset (Ref sig .tc) :=
  Finset.univ.filter fun b => b ≠ main_arg0 ∧ b ≠ main_arg1 ∧ b ≠ main_arg2 ∧ b ≠ main_arg3

theorem sfx_writes : ∀ ops ∈ ([hostOps1, hostOps1_1, hostOps1_2] : List (List (HloOp τ sig (Elt F)))), ∀ op ∈ ops,
    ∀ b : Ref sig .tc, Proc.devRef .tc b ∈ op.writes → b ∈ notArgs := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl
    all_goals
      intro b hb
      simp only [StableHlo.nullary_writes, StableHlo.unary_writes, StableHlo.binary_writes, StableHlo.ternary_writes, StableHlo.reshape_writes, Finset.mem_singleton] at hb
      have hb' := Classical.not_not.mp (fun hne => StableHlo.devRef_ne_of_ne hne hb)
      subst hb'
      simp only [notArgs, Finset.mem_filter, Finset.mem_univ, true_and]
      decide
  · simp only [hostOps1_1, List.mem_cons, List.mem_nil_iff, or_false] at hop
    rcases hop with rfl | rfl | rfl
    all_goals
      intro b hb
      simp only [StableHlo.nullary_writes, StableHlo.unary_writes, StableHlo.binary_writes, StableHlo.ternary_writes, StableHlo.reshape_writes, Finset.mem_singleton] at hb
      have hb' := Classical.not_not.mp (fun hne => StableHlo.devRef_ne_of_ne hne hb)
      subst hb'
      simp only [notArgs, Finset.mem_filter, Finset.mem_univ, true_and]
      decide
  · simp only [hostOps1_2, List.mem_cons, List.mem_nil_iff, or_false] at hop
    rcases hop with rfl | rfl | rfl
    all_goals
      intro b hb
      simp only [StableHlo.nullary_writes, StableHlo.unary_writes, StableHlo.binary_writes, StableHlo.ternary_writes, StableHlo.reshape_writes, Finset.mem_singleton] at hb
      have hb' := Classical.not_not.mp (fun hne => StableHlo.devRef_ne_of_ne hne hb)
      subst hb'
      simp only [notArgs, Finset.mem_filter, Finset.mem_univ, true_and]
      decide

set_option backward.isDefEq.respectTransparency.types false in
/-- Every weakly fair execution of @main terminates without a fault; every buffer that is no array of the pipeline and
    that the lines after the region do not write ends as the region found it. -/
theorem frun : θ_run defs (onTc (τ := τ) (main (F := F))) (s₀ m ρ)
    (Pipeline.RDat.FramePostR cfg0 (fun c => (fdats m 0 c).toRForget forgetMask) notArgs (fun c b => V0 m c (Proc.devRef .tc b))) :=
  Pipeline.RDat.θ_run_frame_around_T cfgs (0 : Fin 1) launch0 defs₀ Variants.none
    (fun c => (fdats m 0 c).toRForget forgetMask) notArgs m ρ main
    (hbody := fun c => (fbody_obligation m c).toRForget)
    (hshare := fun c => (fdats m 0 c).share_full fun _ => rfl) (howed := fun _ _ => rfl)
    (V₀ := V0 m) (opss := [hostOps1, hostOps1_1, hostOps1_2]) (hsub := sfx_sub) (hfresh := sfx_fresh) (hkeep := sfx_keeps)
    (hT := sfx_writes) (hmain := hmain m Variants.none) (hA := fA_eq m) (hΦ := fun _ _ => rfl)

theorem arg_mem (b : Ref sig .tc) (hs : b.isScoped = false) (ha : ∀ w, (spec0 w).arr.view.ref ≠ b)
    (hn : ¬(b ≠ main_arg0 ∧ b ≠ main_arg1 ∧ b ≠ main_arg2 ∧ b ≠ main_arg3)) :
    b ∈ Pipeline.restRefs sig spec0 \ notArgs :=
  Finset.mem_sdiff.mpr ⟨Pipeline.mem_restRefs_of b hs ha, fun h => hn (Finset.mem_filter.mp h).2⟩

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (arg_mem main_arg0 (by decide) (by decide) (by decide))).trans (V_main_arg0 m c),
     ((h c).2 main_arg1 (arg_mem main_arg1 (by decide) (by decide) (by decide))).trans (V_main_arg1 m c),
     ((h c).2 main_arg2 (arg_mem main_arg2 (by decide) (by decide) (by decide))).trans (V_main_arg2 m c),
     ((h c).2 main_arg3 (arg_mem main_arg3 (by decide) (by decide) (by decide))).trans (V_main_arg3 m c)⟩) (frun m ρ)

end Cert.Kernel.Body

end
-- ==== Proof.KITriple.lean ====
/-
  One grid point of the neighbour kernel as a Hoare triple, for any float instance: from the six staging buffers at
  known contents (the two atom blocks, the box lengths, their reciprocals, the cutoff) and the mask buffer at any
  contents, the body loads the five inputs whole, computes, and overwrites the whole mask buffer with ONE function of
  what it loaded; the five input buffers end as they were.
-/
import proofs.«408253_j46969762349284_3_alg».proof.Proof.Gen.KernelIdeal.Frame
import proofs.«408253_j46969762349284_3_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one is the whole buffer -/

abbrev rAtoms : Rect S3x131072 := Rect.unit (s := S3x131072) ![0, 0] S3x131072.size inb_S3x131072_S3x131072_0_0
abbrev rBox : Rect S3x1 := Rect.unit (s := S3x1) ![0, 0] S3x1.size inb_S3x1_S3x1_0_0
abbrev rCut : Rect S1x1 := Rect.unit (s := S1x1) ![0, 0] S1x1.size inb_S1x1_S1x1_0_0
abbrev rMask : Rect S1x131072 := Rect.unit (s := S1x131072) ![0, 0] S1x131072.size inb_S1x131072_S1x131072_0_0

/-- What the mask buffer holds after the body, from the contents of the five input buffers (first atoms' block,
    second atoms' block, box, reciprocal box, cutoff): the one store's payload, written through the whole buffer. -/
def maskOut (x0 x1 : Vec F S3x131072 .f32) (x2 x3 : Vec F S3x1 .f32) (x4 : Vec F S1x1 .f32) : Vec F S1x131072 .i32 :=
  View.canon [⟨rMask, k0_pay1 (View.ld x1 rAtoms) (View.ld x0 rAtoms) (View.ld x2 rBox) (View.ld x3 rBox) (View.ld x4 rCut)⟩]

/-- The one store covers the buffer. -/
theorem coverMask (p0 : Vec F S1x131072 .i32) (y : S1x131072.Idx) :
    ∃ pc ∈ ([⟨rMask, p0⟩] : List (View.Piece (Elt F) S1x131072 .i32)), y ∈ pc.1.set :=
  View.cover_of_tiled [⟨rMask, p0⟩] S1x131072.size (by rfl) y

set_option maxHeartbeats 1000000 in
/-- The body on whole staging memrefs. -/
theorem sound_kernel (c : Dev nD) (E : Set ℕ) (i : grid0.Coords)
    (arg1 : Memref sig .tc .vmem S3x131072 .f32) (harg1 : arg1.IsWhole) (arg2 : Memref sig .tc .vmem S3x131072 .f32) (harg2 : arg2.IsWhole)
    (arg3 : Memref sig .tc .vmem S3x1 .f32) (harg3 : arg3.IsWhole) (arg4 : Memref sig .tc .vmem S3x1 .f32) (harg4 : arg4.IsWhole)
    (arg5 : Memref sig .tc .vmem S1x1 .f32) (harg5 : arg5.IsWhole) (arg6 : Memref sig .tc .vmem S1x131072 .i32) (harg6 : arg6.IsWhole)
    (x0 x1 : Vec F S3x131072 .f32) (x2 x3 : Vec F S3x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (maskOut x0 x1 x2 x3 x4)) -∗ K ⟨⟩))
      ⊢ wp frame (wpE (defs₀ (F := F)) Variants.none c none) E (cc0__neighbor_kernel i arg1 harg1 arg2 harg2 arg3 harg3 arg4 harg4 arg5 harg5 arg6 harg6) K := by
  simp only [cc0__neighbor_kernel_eq_skeleton]; unfold cc0__neighbor_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverMask _)

end Cert.KernelIdeal.Body

end
-- ==== Proof.KIFrame.lean ====
/-
  The frame of the neighbour program, for any float instance: it runs to the end, faults nowhere and leaves its four
  argument arrays as they were.  The two atom blocks and the mask block overhang their arrays at the last grid point:
  there the fetch fills the staging buffer's tail with words nothing names, the body computes on them too, and the
  write-back drops that tail.  So what the mask buffer holds is not stated here at all (the frame does not read it);
  the input buffers are stated on the part inside the array.
-/
import proofs.«408253_j46969762349284_3_alg».proof.Proof.KITriple
import Idealize.ShloMosaic.Lib.Pipeline.Kit
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first atoms' block at point `t`, filled out past the array's end with the zero word. -/
def blk0 (c : Dev nD) (t : Fin cfg0.N) : (cfg0.win 0).block.Idx → Elt F (cfg0.win 0).elt :=
  (cfg0.win 0).fill (cfg0.grid.coords t) (fun _ => (Scalar.ofBits .f32 0#32 : Elt F .f32)) (iblk m c 0 t)
/-- The second atoms' block likewise. -/
def blk1 (c : Dev nD) (t : Fin cfg0.N) : (cfg0.win 1).block.Idx → Elt F (cfg0.win 1).elt :=
  (cfg0.win 1).fill (cfg0.grid.coords t) (fun _ => (Scalar.ofBits .f32 0#32 : Elt F .f32)) (iblk m c 1 t)

/-- The windows whose contents the frame does not name: the mask's. -/
abbrev forgetMask : Fin 6 → Bool := fun | 0 => false | 1 => false | 2 => false | 3 => false | 4 => false | 5 => true | ⟨_ + 6, h⟩ => absurd h (Nat.not_lt.2 (Nat.le_add_left _ _))

/-- The arrays as the region finds them; after the body each input buffer at its block; the mask buffer unnamed. -/
def fdats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => iblk m c 2 t
    | ⟨3, _⟩ => iblk m c 3 t
    | ⟨4, _⟩ => iblk m c 4 t
    | ⟨5, _⟩ => fun _ => (0#32 : BitVec 32)
  Φ _ := Pipeline.ΦA spec0 c
  q _ := fullShare
  owed _ := 0

theorem fA_eq (c : Dev nD) (w : Fin cfg0.W) : (fdats m 0 c).A w = V m c (Pipeline.arrRef spec0 w) := by
  dsimp only [fdats]
theorem fafter0 (c : Dev nD) (t : Fin cfg0.N) : (fdats m 0 c).after 0 t = blk0 m c t := by dsimp only [fdats]
theorem fafter1 (c : Dev nD) (t : Fin cfg0.N) : (fdats m 0 c).after 1 t = blk1 m c t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]

/-- The atom windows are fetched at every point: the body finds the block on the part inside the array. -/
theorem fbefore0 (c : Dev nD) (t : Fin cfg0.N) (d) :
    (fdats m 0 c).before 0 t d = (cfg0.win 0).fill (cfg0.grid.coords t) d (iblk m c 0 t) := by
  unfold Dat.before; rw [if_pos (fetch0_0 t)]; unfold Dat.fetched Dat.blockOf iblk; rw [fA_eq]
theorem fbefore1 (c : Dev nD) (t : Fin cfg0.N) (d) :
    (fdats m 0 c).before 1 t d = (cfg0.win 1).fill (cfg0.grid.coords t) d (iblk m c 1 t) := by
  unfold Dat.before; rw [if_pos (fetch0_1 t)]; unfold Dat.fetched Dat.blockOf iblk; rw [fA_eq]
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d
theorem fbefore4 (c : Dev nD) (t : Fin cfg0.N) (d) : (fdats m 0 c).before 4 t d = iblk m c 4 t :=
  before0_4_of m (fdats m 0 c) (fA_eq m c 4) (fafter4 m c) t d

/-! ## The body obligation -/

/-- What the body is called with at point `t`, the windows one by one: the mask's buffer at any contents, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ X, owns (c : Thread nD τ) (st0_5 t) fullShare X))

/-- and what it returns: the atom buffers stated on the part inside the array, the mask's at any contents. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare ((cfg0.win 0).fill (cfg0.grid.coords t) d ((cfg0.win 0).cut (cfg0.grid.coords t) ((fdats m 0 c).after 0 t))))
    ∗ (∃ d, owns (c : Thread nD τ) (st0_1 t) fullShare ((cfg0.win 1).fill (cfg0.grid.coords t) d ((cfg0.win 1).cut (cfg0.grid.coords t) ((fdats m 0 c).after 1 t))))
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ (∃ X, owns (c : Thread nD τ) (st0_5 t) fullShare X))

theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0, fbefore1, fbefore2, fbefore3, fbefore4]
  rw [show (fdats m 0 c).Φ t.succ = (fdats m 0 c).Φ t.castSucc from rfl,
    show (fdats m 0 c).owesAt () t.succ = (fdats m 0 c).owesAt () t.castSucc from rfl,
    fafter0, fafter1, fafter2, fafter3, fafter4]
  iintro ⟨HΦ, Ho, ⟨%d0, H0⟩, ⟨%d1, H1⟩, ⟨%d2, H2⟩, ⟨%d3, H3⟩, ⟨%d4, H4⟩, ⟨%X5, H5⟩⟩
  iapply (sound_kernel (F := F) c Set.univ (grid0.coords t) _ _ _ _ _ _ _ _ _ _ _ _
    ((cfg0.win 0).fill (cfg0.grid.coords t) d0 (iblk m c 0 t)) ((cfg0.win 1).fill (cfg0.grid.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    unfold blk0; rw [(cfg0.win 0).cut_fill]; iexact H0
  isplitl [H1]
  · iexists d1
    unfold blk1; rw [(cfg0.win 1).cut_fill]; iexact H1
  isplitl [H2]; · iexact H2
  isplitl [H3]; · iexact H3
  isplitl [H4]; · iexact H4
  iexists _; iexact H5

theorem fbody_obligation (c : Dev nD) :
    BodyObligationLoose (fdats (F := F) m 0 c) (defs₀ (F := F)) Variants.none () Set.univ forgetMask := fun t => by
  rw [bigSep_W0, bigSep_W0]
  exact fsound_body m c t

/-! ## The run and the frame -/

/-- Every buffer but the four arguments: what the lines after the region may write. -/
def notArgs : Finset (Ref sig .tc) :=
  Finset.univ.filter fun b => b ≠ main_arg0 ∧ b ≠ main_arg1 ∧ b ≠ main_arg2 ∧ b ≠ main_arg3

theorem sfx_writes : ∀ ops ∈ ([hostOps1, hostOps1_1, hostOps1_2] : List (List (HloOp τ sig (Elt F)))), ∀ op ∈ ops,
    ∀ b : Ref sig .tc, Proc.devRef .tc b ∈ op.writes → b ∈ notArgs := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl
    all_goals
      intro b hb
      simp only [StableHlo.nullary_writes, StableHlo.unary_writes, StableHlo.binary_writes, StableHlo.ternary_writes, StableHlo.reshape_writes, Finset.mem_singleton] at hb
      have hb' := Classical.not_not.mp (fun hne => StableHlo.devRef_ne_of_ne hne hb)
      subst hb'
      simp only [notArgs, Finset.mem_filter, Finset.mem_univ, true_and]
      decide
  · simp only [hostOps1_1, List.mem_cons, List.mem_nil_iff, or_false] at hop
    rcases hop with rfl | rfl | rfl
    all_goals
      intro b hb
      simp only [StableHlo.nullary_writes, StableHlo.unary_writes, StableHlo.binary_writes, StableHlo.ternary_writes, StableHlo.reshape_writes, Finset.mem_singleton] at hb
      have hb' := Classical.not_not.mp (fun hne => StableHlo.devRef_ne_of_ne hne hb)
      subst hb'
      simp only [notArgs, Finset.mem_filter, Finset.mem_univ, true_and]
      decide
  · simp only [hostOps1_2, List.mem_cons, List.mem_nil_iff, or_false] at hop
    rcases hop with rfl | rfl | rfl
    all_goals
      intro b hb
      simp only [StableHlo.nullary_writes, StableHlo.unary_writes, StableHlo.binary_writes, StableHlo.ternary_writes, StableHlo.reshape_writes, Finset.mem_singleton] at hb
      have hb' := Classical.not_not.mp (fun hne => StableHlo.devRef_ne_of_ne hne hb)
      subst hb'
      simp only [notArgs, Finset.mem_filter, Finset.mem_univ, true_and]
      decide

set_option backward.isDefEq.respectTransparency.types false in
/-- Every weakly fair execution of @main terminates without a fault; every buffer that is no array of the pipeline and
    that the lines after the region do not write ends as the region found it. -/
theorem frun : θ_run defs (onTc (τ := τ) (main (F := F))) (s₀ m ρ)
    (Pipeline.RDat.FramePostR cfg0 (fun c => (fdats m 0 c).toRForget forgetMask) notArgs (fun c b => V0 m c (Proc.devRef .tc b))) :=
  Pipeline.RDat.θ_run_frame_around_T cfgs (0 : Fin 1) launch0 defs₀ Variants.none
    (fun c => (fdats m 0 c).toRForget forgetMask) notArgs m ρ main
    (hbody := fun c => (fbody_obligation m c).toRForget)
    (hshare := fun c => (fdats m 0 c).share_full fun _ => rfl) (howed := fun _ _ => rfl)
    (V₀ := V0 m) (opss := [hostOps1, hostOps1_1, hostOps1_2]) (hsub := sfx_sub) (hfresh := sfx_fresh) (hkeep := sfx_keeps)
    (hT := sfx_writes) (hmain := hmain m Variants.none) (hA := fA_eq m) (hΦ := fun _ _ => rfl)

theorem arg_mem (b : Ref sig .tc) (hs : b.isScoped = false) (ha : ∀ w, (spec0 w).arr.view.ref ≠ b)
    (hn : ¬(b ≠ main_arg0 ∧ b ≠ main_arg1 ∧ b ≠ main_arg2 ∧ b ≠ main_arg3)) :
    b ∈ Pipeline.restRefs sig spec0 \ notArgs :=
  Finset.mem_sdiff.mpr ⟨Pipeline.mem_restRefs_of b hs ha, fun h => hn (Finset.mem_filter.mp h).2⟩

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (arg_mem main_arg0 (by decide) (by decide) (by decide))).trans (V_main_arg0 m c),
     ((h c).2 main_arg1 (arg_mem main_arg1 (by decide) (by decide) (by decide))).trans (V_main_arg1 m c),
     ((h c).2 main_arg2 (arg_mem main_arg2 (by decide) (by decide) (by decide))).trans (V_main_arg2 m c),
     ((h c).2 main_arg3 (arg_mem main_arg3 (by decide) (by decide) (by decide))).trans (V_main_arg3 m c)⟩) (frun m ρ)

end Cert.KernelIdeal.Body

end
-- ==== Proof.KIDat.lean ====
/-
  The proof data of the neighbour kernel's pipeline at the ideal instance, with the mask buffer NAMED: after the body at
  grid point t the mask buffer holds the body's function of the two atom blocks (each filled out past the array's end
  with the zero word), the box, its reciprocal and the cutoff.  On the lanes inside the array that function does not
  depend on the filling, which is what lets the write-back be stated.
-/
import proofs.«408253_j46969762349284_3_alg».proof.Proof.KIFrame
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The arrays as the region finds them; after the body each input buffer at its block and the mask buffer at the
    body's function of them. -/
def vdats (_ : Fin 1) (c : Dev nD) : Dat τ (Elt Ideal) Unit ℕ (UR sig nD τ) ℕ cfg0 c where
  A w := V m c (Pipeline.arrRef spec0 w)
  after w t := match w with
    | ⟨0, _⟩ => Body.blk0 m c t
    | ⟨1, _⟩ => Body.blk1 m c t
    | ⟨2, _⟩ => iblk m c 2 t
    | ⟨3, _⟩ => iblk m c 3 t
    | ⟨4, _⟩ => iblk m c 4 t
    | ⟨5, _⟩ => Body.maskOut (Body.blk0 m c t) (Body.blk1 m c t) (iblk m c 2 t) (iblk m c 3 t) (iblk m c 4 t)
  Φ _ := Pipeline.ΦA spec0 c
  q _ := fullShare
  owed _ := 0

theorem vA_eq (c : Dev nD) (w : Fin cfg0.W) : (vdats m 0 c).A w = V m c (Pipeline.arrRef spec0 w) := by
  dsimp only [vdats]
theorem vafter0 (c : Dev nD) (t : Fin cfg0.N) : (vdats m 0 c).after 0 t = Body.blk0 m c t := by dsimp only [vdats]
theorem vafter1 (c : Dev nD) (t : Fin cfg0.N) : (vdats m 0 c).after 1 t = Body.blk1 m c t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t
    = Body.maskOut (Body.blk0 m c t) (Body.blk1 m c t) (iblk m c 2 t) (iblk m c 3 t) (iblk m c 4 t) := by dsimp only [vdats]

theorem vbefore0 (c : Dev nD) (t : Fin cfg0.N) (d) :
    (vdats m 0 c).before 0 t d = (cfg0.win 0).fill (cfg0.grid.coords t) d (iblk m c 0 t) := by
  unfold Dat.before; rw [if_pos (fetch0_0 t)]; unfold Dat.fetched Dat.blockOf iblk; rw [vA_eq]
theorem vbefore1 (c : Dev nD) (t : Fin cfg0.N) (d) :
    (vdats m 0 c).before 1 t d = (cfg0.win 1).fill (cfg0.grid.coords t) d (iblk m c 1 t) := by
  unfold Dat.before; rw [if_pos (fetch0_1 t)]; unfold Dat.fetched Dat.blockOf iblk; rw [vA_eq]
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d

end Cert.KernelIdeal.Val

end
-- ==== Proof.KernelPay.lean ====
/-
  The kernel body's arithmetic read at one lane, on the extended reals.

  From the two coordinate blocks (three rows, one lane per pair), the box lengths, their reciprocals and the cutoff, the
  body forms for each lane j and axis k the displacement d = cj[k, j] - ci[k, j], its wrapped value
  w = d - L_k * rne(d * (1 / L_k)), where rne rounds to the nearest integer with ties to even, the sum of the three squares
  w * w, its square root, the comparison with the cutoff, and widens the resulting bit to a word. `pay_apply` says exactly that of
  the stored value at lane j. `recip_round` then replaces the product with the reciprocal by the quotient inside the
  re-multiplied rounding, for every box length, zero included.
-/
import proofs.«408253_j46969762349284_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-- A column `[a, 1]` broadcast to `[a, b]` reads, at `(p, c)`, the column's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A square root at an index, at the ideal instance. -/
theorem sqrt_apply {s : Shape} {φ : FTy} (a : FVec Ideal s φ) (i : s.Idx) : sqrt a i = Ideal.sqrt (a i) := rfl
/-- A rounding to the nearest integer, ties to even, at an index, at the ideal instance. -/
theorem roundeven_apply {s : Shape} {φ : FTy} (a : FVec Ideal s φ) (i : s.Idx) :
    roundeven a i = Ideal.liftRound Ideal.roundHalfEven (a i) := rfl
/-- A comparison at an index, at the ideal instance. -/
theorem cmpf_ideal_apply {s : Shape} {φ : FTy} (p : CmpFPredicate) (a b : FVec Ideal s φ) (i : s.Idx) :
    cmpf p a b i = Ideal.cmp p (a i) (b i) := rfl

/-- Row `k` of column `j` of the wrapped displacement, from the loaded blocks. -/
def col (cj ci : Vec Ideal S3x131072 .f32) (b ib : Vec Ideal S3x1 .f32) (j : Fin 131072) (k : Fin 3) : EReal :=
  (cj (ix2 k j) - ci (ix2 k j)) - b (ix2 k (0 : Fin 1)) * Ideal.liftRound Ideal.roundHalfEven ((cj (ix2 k j) - ci (ix2 k j)) * ib (ix2 k (0 : Fin 1)))

/-- The wrapped displacement as a block: the difference of the two coordinate blocks less the box length times the rounded
    product of the difference with the reciprocal box length, the two columns broadcast along the lanes. -/
abbrev wblk (cj ci : FVec Ideal S3x131072 .f32) (b ib : FVec Ideal S3x1 .f32) : FVec Ideal S3x131072 .f32 :=
  subf (subf cj ci) (mulf (broadcastTo S3x131072 b broadcasts_S3x1_S3x131072)
    (roundeven (mulf (subf cj ci) (broadcastTo S3x131072 ib broadcasts_S3x1_S3x131072))))

/-- Row `k`, lane `j` of that block is `col`. -/
theorem wblk_apply (cj ci : FVec Ideal S3x131072 .f32) (b ib : FVec Ideal S3x1 .f32) (k : Fin 3) (j : Fin 131072) :
    wblk cj ci b ib (ix2 k j) = col cj ci b ib j k := by
  show (cj (ix2 k j) - ci (ix2 k j)) - broadcastTo S3x131072 b broadcasts_S3x1_S3x131072 (ix2 k j)
      * Ideal.liftRound Ideal.roundHalfEven ((cj (ix2 k j) - ci (ix2 k j)) * broadcastTo S3x131072 ib broadcasts_S3x1_S3x131072 (ix2 k j)) = _
  rw [broadcastTo_a1_ab_apply b, broadcastTo_a1_ab_apply ib]
  rfl

/-- The sum over the three rows of a block, stored as one row, read at lane `j`. -/
theorem lane_sum_apply (x : FVec Ideal S3x131072 .f32) (hφ : FKind.Formats .f32)
    (hacc : (0x00000000#32 : BitVec 32) = FKind.add.neutral .f32 hφ) (j : Fin 131072) :
    shapeCast S1x131072 (multiReduction (F := Ideal) .add [0] S131072 x 0x00000000#32 reduces_S3x131072_S131072 hφ hacc)
        shapeCasts_S131072_S1x131072 (ix2 (0 : Fin 1) j)
      = ∑ k : Fin 3, x (ix2 k j) := by
  refine (shapeCast_a_1a_apply _ shapeCasts_S131072_S1x131072 (0 : Fin 1) j).trans ?_
  refine (Ideal.multiReduction_add_single x _ reduces_S3x131072_S131072 hφ hacc (ix1 j)).trans ?_
  refine Finset.sum_congr rfl fun k _ => congrArg x ?_
  funext a
  match a with
  | ⟨0, _⟩ => rfl
  | ⟨1, _⟩ => rfl

/-- THE STORED VALUE AT LANE `j`: the widened bit of "the square root of the sum of the three squared wrapped displacements is
    below the cutoff". The first block is the one subtracted FROM. -/
theorem pay_apply (cj ci : Vec Ideal S3x131072 .f32) (b ib : Vec Ideal S3x1 .f32) (cut : Vec Ideal S1x1 .f32) (j : Fin 131072) :
    k0_pay1 (F := Ideal) cj ci b ib cut (ix2 (0 : Fin 1) j)
      = (Ideal.cmp .olt (Ideal.sqrt (∑ k : Fin 3, col cj ci b ib j k * col cj ci b ib j k)) (cut (ix2 (0 : Fin 1) (0 : Fin 1)))).setWidth 32 := by
  unfold k0_pay1
  dsimp only
  simp only [shapeCast_self]
  rw [extui_apply, cmpf_ideal_apply, sqrt_apply]
  refine congrArg (BitVec.setWidth 32) (congrArg₂ (Ideal.cmp .olt) (congrArg Ideal.sqrt ?_) ?_)
  · refine (lane_sum_apply _ _ _ j).trans (Finset.sum_congr rfl fun k _ => ?_)
    rw [mulf_apply]
    exact congrArg₂ (· * ·) (wblk_apply cj ci b ib k j) (wblk_apply cj ci b ib k j)
  · exact broadcastTo_a1_ab_apply cut broadcasts_S1x1_S1x131072 (0 : Fin 1) j

/-- The word `0x3F800000` is the single-precision `1.0`. -/
theorem ofBits_one : Ideal.ofBits .f32 0x3F800000#32 = 1 := by
  simp [Ideal.ofBits, Ideal.ieee, -EReal.coe_mul]; norm_num

/-- A product with the reciprocal is the quotient inside the rounded, re-multiplied term, for EVERY extended real `b`:
    off zero `1 / b` is `b⁻¹`, so both arguments of the rounding are `d * b⁻¹`; at zero both sides are `0 * _ = 0`. -/
theorem recip_round (d b : EReal) :
    b * Ideal.liftRound Ideal.roundHalfEven (d * Ideal.div (Ideal.ofBits .f32 0x3F800000#32) b)
      = b * Ideal.liftRound Ideal.roundHalfEven (Ideal.div d b) := by
  by_cases hb : b = 0
  · rw [hb, zero_mul, zero_mul]
  · rw [ofBits_one]
    unfold Ideal.div
    rw [if_neg hb, if_neg hb, one_mul]

end Cert.KernelIdeal.Pay

end
-- ==== Proof.KILocal.lean ====
/-
  LOCALITY of the mask, and the grid's clip facts.

  The mask buffer after the body, read at lane j, is the widened bit of "the minimum-image distance of the pair in column j
  is below the cutoff": it reads the two atom blocks in column j only. The 256 grid points cut the arrays' 33,550,336
  columns into blocks of 131,072; the last block overhangs the arrays' end, and there the transfers move only the leading
  126,976 columns, the same count for the two atom windows and for the mask window. So on the lanes the write-back
  moves, the mask does not depend on what the atom buffers hold past the moved part.
-/
import proofs.«408253_j46969762349284_3_alg».proof.Proof.KITriple
import proofs.«408253_j46969762349284_3_alg».proof.Proof.KernelPay
import Idealize.ShloMosaic.Lib.Pipeline.FrameBody

noncomputable section

namespace Cert.KernelIdeal.Local

open Cert.KernelIdeal Cert.KernelIdeal.Gen Idealize.ShloMosaic Idealize.ShloMosaic.ValueIdx

/-- The mask buffer after the body, read at lane `j`. -/
theorem maskOut_apply (x0 x1 : Vec Ideal S3x131072 .f32) (x2 x3 : Vec Ideal S3x1 .f32) (x4 : Vec Ideal S1x1 .f32) (j : Fin 131072) :
    Body.maskOut (F := Ideal) x0 x1 x2 x3 x4 (ix2 (0 : Fin 1) j)
      = (Ideal.cmp .olt (Ideal.sqrt (∑ k : Fin 3, Pay.col x1 x0 x2 x3 j k * Pay.col x1 x0 x2 x3 j k)) (x4 (ix2 (0 : Fin 1) (0 : Fin 1)))).setWidth 32 := by
  have hz : (![0, 0] : Fin 2 → Nat) = fun _ => 0 := funext fun a => by fin_cases a <;> rfl
  unfold Body.maskOut
  rw [View.canon_unit_zero hz]
  simp only [View.ld_unit_zero (S := S3x131072) hz, View.ld_unit_zero (S := S3x1) hz, View.ld_unit_zero (S := S1x1) hz]
  exact Pay.pay_apply x1 x0 x2 x3 x4 j

/-! ## The grid's clip facts, decided over the 256 points -/

/-- The first atoms' window moves all three rows at every point. -/
theorem xsize0_rows : ∀ t : Fin cfg0.N, (cfg0.win 0).xsize (cfg0.grid.coords t) 0 = 3 :=
  (by decide +kernel : ∀ t : Fin grid0.N, win0_0.xsize (grid0.coords t) 0 = 3)
/-- So does the second atoms' window. -/
theorem xsize1_rows : ∀ t : Fin cfg0.N, (cfg0.win 1).xsize (cfg0.grid.coords t) 0 = 3 :=
  (by decide +kernel : ∀ t : Fin grid0.N, win0_1.xsize (grid0.coords t) 0 = 3)
/-- The first atoms' window moves as many lanes as the mask window at every point. -/
theorem xsize0_lanes : ∀ t : Fin cfg0.N, (cfg0.win 0).xsize (cfg0.grid.coords t) 1 = (cfg0.win 5).xsize (cfg0.grid.coords t) 1 :=
  (by decide +kernel : ∀ t : Fin grid0.N, win0_0.xsize (grid0.coords t) 1 = win0_5.xsize (grid0.coords t) 1)
/-- So does the second atoms' window. -/
theorem xsize1_lanes : ∀ t : Fin cfg0.N, (cfg0.win 1).xsize (cfg0.grid.coords t) 1 = (cfg0.win 5).xsize (cfg0.grid.coords t) 1 :=
  (by decide +kernel : ∀ t : Fin grid0.N, win0_1.xsize (grid0.coords t) 1 = win0_5.xsize (grid0.coords t) 1)
/-- The mask window moves its one row. -/
theorem xsize5_rows : ∀ t : Fin cfg0.N, (cfg0.win 5).xsize (cfg0.grid.coords t) 0 = 1 :=
  (by decide +kernel : ∀ t : Fin grid0.N, win0_5.xsize (grid0.coords t) 0 = 1)
/-- The mask window moves a whole block of lanes, or what is left of the array at the last point. -/
theorem xsize5_lanes : ∀ t : Fin cfg0.N, (cfg0.win 5).xsize (cfg0.grid.coords t) 1 = min 131072 (33550336 - t.val * 131072) :=
  (by decide +kernel : ∀ t : Fin grid0.N, win0_5.xsize (grid0.coords t) 1 = min 131072 (33550336 - t.val * 131072))
/-- Every window's block index is `(0, t)` at point `t`. -/
theorem index0_rows : ∀ t : Fin cfg0.N, (cfg0.win 0).index t 0 = 0 :=
  (by decide +kernel : ∀ t : Fin grid0.N, win0_0.index t 0 = 0)
theorem index1_rows : ∀ t : Fin cfg0.N, (cfg0.win 1).index t 0 = 0 :=
  (by decide +kernel : ∀ t : Fin grid0.N, win0_1.index t 0 = 0)
theorem index5_rows : ∀ t : Fin cfg0.N, (cfg0.win 5).index t 0 = 0 :=
  (by decide +kernel : ∀ t : Fin grid0.N, win0_5.index t 0 = 0)
theorem index0_lanes : ∀ t : Fin cfg0.N, (cfg0.win 0).index t 1 = t.val :=
  (by decide +kernel : ∀ t : Fin grid0.N, win0_0.index t 1 = t.val)
theorem index1_lanes : ∀ t : Fin cfg0.N, (cfg0.win 1).index t 1 = t.val :=
  (by decide +kernel : ∀ t : Fin grid0.N, win0_1.index t 1 = t.val)
theorem index5_lanes : ∀ t : Fin cfg0.N, (cfg0.win 5).index t 1 = t.val :=
  (by decide +kernel : ∀ t : Fin grid0.N, win0_5.index t 1 = t.val)

/-! ## Locality -/

/-- Two fillings of a block with the same moved part agree wherever the transfer moves. -/
theorem fill_congr_moved {sig : RefSig} {G : Pipeline.Grid} (w : Pipeline.Window sig G) {α : Type} (i : G.Coords)
    (d d' : w.block.Idx → α) (g : (w.xblock i).Idx → α) (jj : w.block.Idx) (h : w.moved i jj = true) :
    w.fill i d g jj = w.fill i d' g jj := by
  unfold Pipeline.Window.fill
  rw [dif_pos h, dif_pos h]

/-- The mask at lane `j` reads the two atom blocks only in column `j`. -/
theorem mask_congr (x0 x0' x1 x1' : Vec Ideal S3x131072 .f32) (x2 x3 : Vec Ideal S3x1 .f32) (x4 : Vec Ideal S1x1 .f32)
    (j : Fin 131072) (h0 : ∀ k : Fin 3, x0 (ix2 k j) = x0' (ix2 k j)) (h1 : ∀ k : Fin 3, x1 (ix2 k j) = x1' (ix2 k j)) :
    Body.maskOut (F := Ideal) x0 x1 x2 x3 x4 (ix2 (0 : Fin 1) j) = Body.maskOut (F := Ideal) x0' x1' x2 x3 x4 (ix2 (0 : Fin 1) j) := by
  rw [maskOut_apply, maskOut_apply]
  have hc : ∀ k : Fin 3, Pay.col x1 x0 x2 x3 j k = Pay.col x1' x0' x2 x3 j k := fun k => by
    unfold Pay.col; rw [h0 k, h1 k]
  simp only [hc]

/-- On the lanes the write-back moves, the mask does not depend on what fills the atom buffers past the array's end. -/
theorem cut_mask_congr (t : Fin cfg0.N) (d0 d0' : (cfg0.win 0).block.Idx → Elt Ideal (cfg0.win 0).elt) (d1 d1' : (cfg0.win 1).block.Idx → Elt Ideal (cfg0.win 1).elt)
    (g0 : ((cfg0.win 0).xblock (cfg0.grid.coords t)).Idx → Elt Ideal (cfg0.win 0).elt) (g1 : ((cfg0.win 1).xblock (cfg0.grid.coords t)).Idx → Elt Ideal (cfg0.win 1).elt)
    (x2 x3 : Vec Ideal S3x1 .f32) (x4 : Vec Ideal S1x1 .f32) :
    (cfg0.win 5).cut (cfg0.grid.coords t) (Body.maskOut ((cfg0.win 0).fill (cfg0.grid.coords t) d0 g0) ((cfg0.win 1).fill (cfg0.grid.coords t) d1 g1) x2 x3 x4)
      = (cfg0.win 5).cut (cfg0.grid.coords t) (Body.maskOut ((cfg0.win 0).fill (cfg0.grid.coords t) d0' g0) ((cfg0.win 1).fill (cfg0.grid.coords t) d1' g1) x2 x3 x4) := by
  funext y
  have hj : (y 1).val < 131072 := lt_of_lt_of_le (y 1).isLt ((cfg0.win 5).xsize_le (cfg0.grid.coords t) 1)
  have hy0 : (y 0).val = 0 := by
    have h : (y 0).val < (cfg0.win 5).xsize (cfg0.grid.coords t) 0 := (y 0).isLt
    rw [xsize5_rows t] at h
    omega
  have hy : (cfg0.win 5).xinj (cfg0.grid.coords t) y = ix2 (0 : Fin 1) (⟨(y 1).val, hj⟩ : Fin 131072) := by
    funext a
    apply Fin.ext
    match a with
    | ⟨0, _⟩ => exact hy0
    | ⟨1, _⟩ => rfl
  show Body.maskOut _ _ x2 x3 x4 ((cfg0.win 5).xinj (cfg0.grid.coords t) y) = Body.maskOut _ _ x2 x3 x4 ((cfg0.win 5).xinj (cfg0.grid.coords t) y)
  simp only [hy]
  have hl : (y 1).val < (cfg0.win 5).xsize (cfg0.grid.coords t) 1 := (y 1).isLt
  refine mask_congr _ _ _ _ x2 x3 x4 _ (fun k => ?_) (fun k => ?_)
  · refine fill_congr_moved (cfg0.win 0) (cfg0.grid.coords t) d0 d0' g0 _ (((cfg0.win 0).moved_iff _ _).mpr fun a => ?_)
    match a with
    | ⟨0, _⟩ => exact lt_of_lt_of_eq k.isLt (xsize0_rows t).symm
    | ⟨1, _⟩ => exact lt_of_lt_of_eq hl (xsize0_lanes t).symm
  · refine fill_congr_moved (cfg0.win 1) (cfg0.grid.coords t) d1 d1' g1 _ (((cfg0.win 1).moved_iff _ _).mpr fun a => ?_)
    match a with
    | ⟨0, _⟩ => exact lt_of_lt_of_eq k.isLt (xsize1_rows t).symm
    | ⟨1, _⟩ => exact lt_of_lt_of_eq hl (xsize1_lanes t).symm

end Cert.KernelIdeal.Local

end
-- ==== Proof.KIRun.lean ====
/-
  The run of the neighbour program at the ideal instance with the mask buffer named: at every grid point the body
  leaves, on the lanes the write-back moves, the mask of the two atom blocks, whatever filled the atom buffers past
  the arrays' end.  The run's post then has the mask array at what the write-backs assemble and every other unscoped
  buffer at what the lines after the region compute from it.
-/
import proofs.«408253_j46969762349284_3_alg».proof.Proof.KIDat
import proofs.«408253_j46969762349284_3_alg».proof.Proof.KILocal
import Idealize.ShloMosaic.Lib.Pipeline.Kit
import Idealize.ShloMosaic.Lib.Pipeline.FrameSuffix

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the body is called with at point `t`, the windows one by one, -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d)))

/-- and what it returns: the three clipped windows' buffers stated on the part their transfers move. -/
def vbodyPost (c : Dev nD) (t : Fin cfg0.N) : sProp 𝕄 :=
  iprop((vdats m 0 c).Φ t.succ ∗ (vdats m 0 c).owesAt () t.succ
    ∗ (∃ d, owns (c : Thread nD τ) (st0_0 t) fullShare ((cfg0.win 0).fill (cfg0.grid.coords t) d ((cfg0.win 0).cut (cfg0.grid.coords t) ((vdats m 0 c).after 0 t))))
    ∗ (∃ d, owns (c : Thread nD τ) (st0_1 t) fullShare ((cfg0.win 1).fill (cfg0.grid.coords t) d ((cfg0.win 1).cut (cfg0.grid.coords t) ((vdats m 0 c).after 1 t))))
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ (∃ d, owns (c : Thread nD τ) (st0_5 t) fullShare ((cfg0.win 5).fill (cfg0.grid.coords t) d ((cfg0.win 5).cut (cfg0.grid.coords t) ((vdats m 0 c).after 5 t)))))

theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [vbefore0, vbefore1, vbefore2, vbefore3, vbefore4]
  rw [show (vdats m 0 c).Φ t.succ = (vdats m 0 c).Φ t.castSucc from rfl,
    show (vdats m 0 c).owesAt () t.succ = (vdats m 0 c).owesAt () t.castSucc from rfl,
    vafter0, vafter1, vafter2, vafter3, vafter4, vafter5]
  iintro ⟨HΦ, Ho, ⟨%d0, H0⟩, ⟨%d1, H1⟩, ⟨%d2, H2⟩, ⟨%d3, H3⟩, ⟨%d4, H4⟩, ⟨%d5, H5⟩⟩
  iapply (Body.sound_kernel (F := Ideal) c Set.univ (grid0.coords t) _ _ _ _ _ _ _ _ _ _ _ _
    ((cfg0.win 0).fill (cfg0.grid.coords t) d0 (iblk m c 0 t)) ((cfg0.win 1).fill (cfg0.grid.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    unfold Body.blk0; rw [(cfg0.win 0).cut_fill]; iexact H0
  isplitl [H1]
  · iexists d1
    unfold Body.blk1; rw [(cfg0.win 1).cut_fill]; iexact H1
  isplitl [H2]; · iexact H2
  isplitl [H3]; · iexact H3
  isplitl [H4]; · iexact H4
  iexists (Body.maskOut ((cfg0.win 0).fill (cfg0.grid.coords t) d0 (iblk m c 0 t)) ((cfg0.win 1).fill (cfg0.grid.coords t) d1 (iblk m c 1 t))
    (iblk m c 2 t) (iblk m c 3 t) (iblk m c 4 t))
  unfold Body.blk0 Body.blk1
  rw [(cfg0.win 5).fill_congr_cut (cfg0.grid.coords t)
    (Local.cut_mask_congr t d0 _ d1 _ (iblk m c 0 t) (iblk m c 1 t) (iblk m c 2 t) (iblk m c 3 t) (iblk m c 4 t))]
  iexact H5

/-- The library's body obligation, every current buffer left as the three clipped windows have it described. -/
theorem vbody_obligation (c : Dev nD) :
    BodyObligationLoose (vdats m 0 c) (defs₀ (F := Ideal)) Variants.none () Set.univ := fun t => by
  rw [bigSep_W0, bigSep_W0]
  exact vsound_body m c t

set_option backward.isDefEq.respectTransparency.types false in
/-- Every weakly fair execution of @main terminates without a fault, the mask array ends at what the write-backs
    assemble, and every other unscoped buffer at what the lines after the region make of it. -/
theorem run_main : θ_run defs (onTc (τ := τ) (main (F := Ideal))) (s₀ m ρ)
    (Pipeline.FramePost cfgs (vdats m) 0 (Pipeline.afterTail₀ cfgs (vdats m) 0 (V0 m) [hostOps1, hostOps1_1, hostOps1_2])) :=
  Pipeline.θ_run_frame_around cfgs (vdats m) (0 : Fin 1) launch0 defs₀ Variants.none m ρ main
    (hbody := vbody_obligation m) (hshare := fun c => (vdats m 0 c).share_full fun _ => rfl) (howed := fun _ _ => rfl)
    (V₀ := V0 m) (opss := [hostOps1, hostOps1_1, hostOps1_2]) (hsub := sfx_sub) (hfresh := sfx_fresh) (hkeep := sfx_keeps)
    (hmain := hmain m Variants.none) (hA := vA_eq m) (hΦ := fun _ _ => rfl)

end Cert.KernelIdeal.Val

end
-- ==== Proof.Spec.lean ====
/-
  The neighbour mask of a pair list under periodic boundaries, as ONE function of the four argument arrays, index by
  index, on the extended reals.

  For pair p with atoms i = pairs[p, 0] and j = pairs[p, 1] (each read as a signed word and clamped into [0, 8191], which
  is how a gather reads a start index), the displacement is d_k = x[j, k] - x[i, k] for the three axes k, its minimum
  image is w_k = d_k - L_k * rne(d_k / L_k) for box lengths L_k, where rne rounds to the nearest integer with ties to
  even, and the pair is NEAR when sqrt(w_0^2 + w_1^2 + w_2^2) < cutoff.  The two results of both programs are the pair
  list with the pairs that are not near replaced by -1, and the number of near pairs.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SAtoms : Shape := ⟨2, ![8192, 3]⟩
abbrev SBox : Shape := ⟨1, ![3]⟩
abbrev SNil : Shape := ⟨0, ![]⟩
abbrev SPairs2 : Shape := ⟨2, ![33550336, 2]⟩
abbrev SPairs1 : Shape := ⟨2, ![33550336, 1]⟩
abbrev SPairs : Shape := ⟨1, ![33550336]⟩

/-- The atom a pair names at its end `e`: the word read signed and clamped into the table. -/
def atom (pairs : IVec SPairs2 32) (p : Fin 33550336) (e : Fin 2) : Fin 8192 :=
  ⟨min (pairs (ix2 p e)).toInt.toNat (8192 - 1), by omega⟩

/-- Axis `k` of the displacement from the pair's first atom to its second. -/
def disp (coords : SAtoms.Idx → EReal) (pairs : IVec SPairs2 32) (p : Fin 33550336) (k : Fin 3) : EReal :=
  coords (ix2 (atom pairs p 1) k) - coords (ix2 (atom pairs p 0) k)

/-- Its minimum image in a box of length `box k` on that axis. -/
def image (coords : SAtoms.Idx → EReal) (box : SBox.Idx → EReal) (pairs : IVec SPairs2 32) (p : Fin 33550336) (k : Fin 3) : EReal :=
  disp coords pairs p k
    - box (ix1 k) * Ideal.liftRound Ideal.roundHalfEven (Ideal.div (disp coords pairs p k) (box (ix1 k)))

/-- Whether the pair's minimum-image distance is below the cutoff. -/
def near (coords : SAtoms.Idx → EReal) (box : SBox.Idx → EReal) (cutoff : SNil.Idx → EReal) (pairs : IVec SPairs2 32)
    (p : Fin 33550336) : BitVec 1 :=
  Ideal.cmp .olt (Ideal.sqrt (∑ k : Fin 3, image coords box pairs p k * image coords box pairs p k)) (cutoff ix0)

/-- The mask over all pairs. -/
def mask (coords : SAtoms.Idx → EReal) (box : SBox.Idx → EReal) (cutoff : SNil.Idx → EReal) (pairs : IVec SPairs2 32) :
    IVec SPairs 1 :=
  fun i => near coords box cutoff pairs (i 0)

/-- The pair list with the pairs the mask clears replaced by -1. -/
def kept (h1 : SPairs.BroadcastsInDim SPairs1 (![0] : Fin 1 → Fin SPairs1.rank))
    (h2 : SPairs1.BroadcastsInDim SPairs2 (![0, 1] : Fin 2 → Fin SPairs2.rank))
    (h3 : SNil.BroadcastsInDim SPairs2 (![] : Fin 0 → Fin SPairs2.rank))
    (M : IVec SPairs 1) (pairs : IVec SPairs2 32) : IVec SPairs2 32 :=
  select (broadcastInDim SPairs2 ![0, 1] h2 (broadcastInDim SPairs1 ![0] h1 M)) pairs
    (broadcastInDim SPairs2 ![] h3 (constantI SNil 32 4294967295#32))

/-- The number of pairs the mask sets. -/
def count (h1 : 1 < 32) (h2 : SPairs.ReducesTo [0] SNil) (h3 : 0 < SNil.numel) (M : IVec SPairs 1) : IVec SNil 32 :=
  Host.reduce IntOp.addi (extui 32 M h1) (constantI SNil 32 0#32) h2 h3

end Cert.Spec

end
-- ==== Proof.KITail.lean ====
/-
  The host lines that follow the region, read off the region's exit contents at the ideal instance.

  After the region the program reshapes the mask array (one row of words, one word per pair) to a vector, compares each
  word with zero as signed words ("greater than"), and from the resulting bit per pair builds its two results: the pair
  list with the pairs whose bit is clear replaced by -1 (the bit laid along both columns, a select against the constant
  -1), and the number of set bits (the bits widened to words and summed).  Both are stated here over the mask array as
  the region leaves it, with the bit vector named `M`: they are then literally the shared specification's two
  compositions over `M`.  The mask array is the sixth window's array, so the lines read it at the region's final
  contents; the pair list is no window's array and no host line writes it, so it is read as launched.
-/
import proofs.«408253_j46969762349284_3_alg».proof.Proof.Gen.KernelIdeal.Frame
import proofs.«408253_j46969762349284_3_alg».proof.Proof.Spec
import Idealize.ShloMosaic.Lib.StableHlo.Run

set_option maxRecDepth 16384

noncomputable section

namespace Cert.KernelIdeal.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ)

/-- The mask array, as the lines after the region find it: the sixth window's array at its final contents. -/
theorem read_mask (dats : (p : Fin 1) → (c : Dev nD) → Pipeline.Dat τ (Elt Ideal) Unit ℕ (UR sig nD τ) ℕ (cfgs p) c) (c : Dev nD) :
    Pipeline.withArrays (cfgs 0).spec c (V0 m c) (fun w => (dats 0 c).arrAt w (cfgs 0).N) (Proc.devRef .tc main_v12)
      = (dats 0 c).arrAt 5 cfg0.N :=
  Pipeline.withArrays_arr spec0 launch0.win.arr_inj c _ _ 5

/-- The pair list, as the lines after the region find it: no window's array, and unwritten before the region, so as
    launched. -/
theorem read_pairs (dats : (p : Fin 1) → (c : Dev nD) → Pipeline.Dat τ (Elt Ideal) Unit ℕ (UR sig nD τ) ℕ (cfgs p) c) (c : Dev nD) :
    Pipeline.withArrays (cfgs 0).spec c (V0 m c) (fun w => (dats 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans
    (V_main_arg3 m c)

/-- The first result: the pair list with the pairs whose mask word is not positive replaced by -1. -/
theorem tail_pairs (dats : (p : Fin 1) → (c : Dev nD) → Pipeline.Dat τ (Elt Ideal) Unit ℕ (UR sig nD τ) ℕ (cfgs p) c) (c : Dev nD) (M : IVec S33550336 1)
    (hM : cmpi .sgt (shapeCast S33550336 ((dats 0 c).arrAt 5 cfg0.N) shapeCasts_S1x33550336_S33550336) (broadcastInDim S33550336 ![] bcast_S_S33550336 (constantI S_ 32 0#32)) = M) :
    Pipeline.afterTail₀ cfgs dats 0 (V0 (F := Ideal) m) [hostOps1, hostOps1_1, hostOps1_2] c main_v17
      = Cert.Spec.kept bcast_S33550336_S33550336x1_0 bcast_S33550336x1_S33550336x2_0_1 bcast_S_S33550336x2 M (m ((c.tc : Thread nD τ).loc main_arg3)) := by
  unfold Pipeline.afterTail₀
  simp only [hostOps1, hostOps1_1, hostOps1_2, List.flatten_cons, List.flatten_nil, List.append_nil, List.cons_append, List.nil_append]
  show StableHlo.after _ _ (Proc.devRef .tc main_v17) = _
  -- each line's result at its own buffer is its function of its operands' contents
  after_results
  -- the two buffers the lines read but do not write
  rw [read_mask m dats c, read_pairs m dats c]
  subst hM
  -- the transports along "this buffer's type is the value's type" are identities
  simp only [StableHlo.TRef.toBuf, StableHlo.TRef.ofBuf, cast_eq]
  rfl

/-- The second result: the number of pairs whose mask word is positive. -/
theorem tail_count (dats : (p : Fin 1) → (c : Dev nD) → Pipeline.Dat τ (Elt Ideal) Unit ℕ (UR sig nD τ) ℕ (cfgs p) c) (c : Dev nD) (M : IVec S33550336 1)
    (hM : cmpi .sgt (shapeCast S33550336 ((dats 0 c).arrAt 5 cfg0.N) shapeCasts_S1x33550336_S33550336) (broadcastInDim S33550336 ![] bcast_S_S33550336 (constantI S_ 32 0#32)) = M) :
    Pipeline.afterTail₀ cfgs dats 0 (V0 (F := Ideal) m) [hostOps1, hostOps1_1, hostOps1_2] c main_v19
      = Cert.Spec.count natLt_1_32 reducesTo_S33550336_S_d0 h_S_ M := by
  unfold Pipeline.afterTail₀
  simp only [hostOps1, hostOps1_1, hostOps1_2, List.flatten_cons, List.flatten_nil, List.append_nil, List.cons_append, List.nil_append]
  show StableHlo.after _ _ (Proc.devRef .tc main_v19) = _
  after_results
  rw [read_mask m dats c]
  subst hM
  rfl

end Cert.KernelIdeal.Tail

end
-- ==== Proof.LibGatherCols.lean ====
import Idealize.ShloMosaic.PureOps
import Idealize.ShloMosaic.Lib.ValueIdx

/-!
# A column gather, read at an index

The COLUMN GATHER `y[:, r] = x[:, idx[r]]` of an operand `x : [C, N]` at a column of start
indices `idx : [R, 1]`, read at one index of its result: result element `(q, r)` is `x` at row
`q` and column `idx[r, 0]`, that word read as a signed integer and clamped into `[0, N − 1]`.

In the operation's own terms: the result's axis 0 is its one offset axis and reads the operand's
axis 0, the only operand axis that is not collapsed, over a slice of full height `C`; the
result's axis 1 is its one batch axis and reads the start indices' axis 0; the start index has
one component, found on the start indices' axis 1, and it addresses the operand's axis 1, which
is collapsed (slice width one).  So on the operand's axis 0 the start is zero and the offset is
the result's row `q`, and on the operand's axis 1 the offset is zero and the start is the
clamped start index of the result's column `r`.
-/

namespace Idealize.ShloMosaic.HostIdxCols

open Idealize.ShloMosaic Idealize.ShloMosaic.ValueIdx

/-- THE COLUMN GATHER READ AT `(q, r)`: the operand at row `q` and column `idx[r, 0]`, read
    signed and clamped into `[0, N − 1]`. -/
theorem gather_cols_apply {α : Type} {N R C w : Nat} (hN : 0 < N)
    (d : GatherDims ⟨2, ![C, N]⟩ ⟨2, ![R, 1]⟩ ⟨2, ![C, R]⟩)
    (hod : d.offsetDims = [0]) (hcd : d.collapsedSliceDims = [1]) (hob : d.operandBatchingDims = [])
    (hsb : d.startIndicesBatchingDims = []) (hsim : d.startIndexMap = [1]) (hiv : d.indexVectorDim = 1)
    (hss : d.sliceSizes = ![C, 1])
    (x : (⟨2, ![C, N]⟩ : Shape).Idx → α) (idx : IVec ⟨2, ![R, 1]⟩ w) (q : Fin C) (r : Fin R) :
    Host.gather d x idx (ix2 q r)
      = x (ix2 q ⟨min (idx (ix2 r (0 : Fin 1))).toInt.toNat (N - 1), by omega⟩) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    -- the operand's row axis: no start, no batching, the offset is the result's row
    show GatherDims.start _ (ix2 q r) idx 0 + GatherDims.batchCoord _ (ix2 q r) 0
      + GatherDims.offCoord _ (ix2 q r) 0 = _
    rw [GatherDims.batchCoord_eq_zero _ _ _ List.not_mem_nil]
    unfold GatherDims.start
    rw [dif_neg (show (0 : Fin 2) ∉ ([1] : List (Fin 2)) by decide)]
    simp only [Nat.add_zero, Nat.zero_add]
    unfold GatherDims.offCoord
    rw [dif_pos ((GatherDims.mem_sKept _ _).mpr
      ⟨show (0 : Fin 2) ∉ ([1] : List (Fin 2)) by decide, List.not_mem_nil⟩)]
    rfl
  | ⟨1, _⟩ =>
    -- the operand's column axis: collapsed, so no offset; the start is the clamped start index
    show GatherDims.start _ (ix2 q r) idx 1 + GatherDims.batchCoord _ (ix2 q r) 1
      + GatherDims.offCoord _ (ix2 q r) 1 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![C, N]⟩) (si := ⟨2, ![R, 1]⟩) (t := ⟨2, ![C, R]⟩)
        ⟨[0], [1], [], [], [1], 1, ![C, 1], wf⟩ (ix2 q r)
        ⟨List.idxOf (1 : Fin 2) [1], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl

end Idealize.ShloMosaic.HostIdxCols
-- ==== Proof.KIHost.lean ====
import proofs.«408253_j46969762349284_3_alg».proof.Proof.Gen.KernelIdeal.Frame
import proofs.«408253_j46969762349284_3_alg».proof.Proof.LibGatherCols
import proofs.«408253_j46969762349284_3_alg».proof.Proof.Spec
import Idealize.ShloMosaic.Lib.StableHlo.Run
import Idealize.ShloMosaic.Lib.ValueIdx
import Idealize.ShloMosaic.Lib.ValueLayout
import Idealize.ShloMosaic.Lib.Pipeline.Value

/-!
# What the region's input windows read: the host lines before the region

Before its one region the program computes, from the four argument arrays (the coordinate table `x : [8192, 3]`,
the box lengths `L : [3]`, the cutoff, a scalar, and the pair list `pairs : [33550336, 2]`), the five arrays
the region's input windows read.  Each is read here at an index, on the extended reals:

* the first atoms' coordinates `[3, 33550336]`: column `e = 0` of the pair list is cut out and flattened, the
  coordinate table is transposed to `[3, 8192]`, and the column gather takes column `pairs[p, 0]` (read signed
  and clamped into `[0, 8191]`) of it for every pair `p`: element `(k, p)` is `x[atom p 0, k]`;
* the second atoms' coordinates: the same with column `e = 1`: element `(k, p)` is `x[atom p 1, k]`;
* the box lengths as a column `[3, 1]`: element `(k, 0)` is `L[k]`;
* their reciprocals as a column: element `(k, 0)` is `1 / L[k]`, the quotient of the ideal instance;
* the cutoff as a `[1, 1]` array: its one element is the cutoff.

Each array is first written as the term of layout operations the host lines apply to the argument arrays, and that
term is then read at the index, one layout operation at a time.
-/

noncomputable section

namespace Cert.KernelIdeal.HostVals

open Cert.KernelIdeal Cert.KernelIdeal.Gen Idealize.ShloMosaic Idealize.ShloMosaic.TcCoe Idealize.ShloMosaic.ValueIdx
open Idealize.SL.Sem
open Idealize.ShloMosaic.StableHlo

/-! ## Layout operations of these shapes read at an index -/

section Reads
variable {α : Type}

/-- A vector `[a]` cast to a column `[a, 1]` reads, at `(i, 0)`, the operand at `i`. -/
theorem shapeCast_a_a1_apply {a : Nat} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    omega)

/-- A column `[a, 1]` cast to a vector `[a]` reads, at `i`, the operand at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A scalar cast to a one-by-one array reads the scalar. -/
theorem shapeCast_nil_11_apply (x : (⟨0, ![]⟩ : Shape).Idx → α)
    (h : (⟨0, ![]⟩ : Shape).ShapeCasts ⟨2, ![1, 1]⟩) :
    shapeCast ⟨2, ![1, 1]⟩ x h (ix2 (0 : Fin 1) (0 : Fin 1)) = x ix0 :=
  shapeCast_apply x h _ _ (by
    rw [Shape.rowMajor_val_two]
    have h0 : ((⟨0, ![]⟩ : Shape).rowMajor ix0).val < 1 := ((⟨0, ![]⟩ : Shape).rowMajor ix0).isLt
    show ((⟨0, ![]⟩ : Shape).rowMajor ix0).val = 0 * 1 + 0
    omega)

/-- A vector `[a]`, `a` not one, broadcast to a column `[a, 1]` along axis 0 reads, at `(i, 0)`, the operand
    at `i`. -/
theorem broadcastInDim_a_a1_apply {a : Nat} (ha : a ≠ 1) (x : (⟨1, ![a]⟩ : Shape).Idx → α)
    (h : (⟨1, ![a]⟩ : Shape).BroadcastsInDim ⟨2, ![a, 1]⟩ (![0] : Fin 1 → Fin 2)) (i : Fin a) :
    broadcastInDim ⟨2, ![a, 1]⟩ ![0] h x (ix2 i (0 : Fin 1)) = x (ix1 i) :=
  broadcastInDim_apply _ h x _ _ (fun b => by
    match b with
    | ⟨0, _⟩ =>
      show i.val = if a = 1 then 0 else i.val
      rw [if_neg ha])

end Reads

variable (m : (ℓ : Loc nD τ sig) → Buf (Elt Ideal) ℓ)

/-! ## The five arrays as terms of the argument arrays -/

/-- The first atoms' coordinates: the gather of the transposed coordinate table at column 0 of the pair list. -/
theorem v5_eq (c : Dev nD) :
    (V (F := Ideal) m c main_v5 : S3x33550336.Idx → EReal)
      = Host.gather gather_S3x8192_S33550336x1_S3x33550336_0_1_n_n_1_1_31
          (transpose S3x8192 [1, 0] (m ((c : Thread nD τ).loc main_arg0) : S8192x3.Idx → EReal) transposes_S8192x3_S3x8192_1_0)
          (broadcastInDim S33550336x1 ![0] bcast_S33550336_S33550336x1_0
            (shapeCast S33550336
              (extractStridedSlice S33550336x1 ![0, 0] (m ((c : Thread nD τ).loc main_arg3) : IVec S33550336x2 32)
                slices_S33550336x2_S33550336x1_0_0)
              shapeCasts_S33550336x1_S33550336)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The second atoms' coordinates: the same gather at column 1 of the pair list. -/
theorem v6_eq (c : Dev nD) :
    (V (F := Ideal) m c main_v6 : S3x33550336.Idx → EReal)
      = Host.gather gather_S3x8192_S33550336x1_S3x33550336_0_1_n_n_1_1_31
          (transpose S3x8192 [1, 0] (m ((c : Thread nD τ).loc main_arg0) : S8192x3.Idx → EReal) transposes_S8192x3_S3x8192_1_0)
          (broadcastInDim S33550336x1 ![0] bcast_S33550336_S33550336x1_0
            (shapeCast S33550336
              (extractStridedSlice S33550336x1 ![0, 1] (m ((c : Thread nD τ).loc main_arg3) : IVec S33550336x2 32)
                slices_S33550336x2_S33550336x1_0_1)
              shapeCasts_S33550336x1_S33550336)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The box lengths as a column. -/
theorem v7_eq (c : Dev nD) :
    (V (F := Ideal) m c main_v7 : S3x1.Idx → EReal)
      = shapeCast S3x1 (m ((c : Thread nD τ).loc main_arg1) : S3.Idx → EReal) shapeCasts_S3_S3x1 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The reciprocal box lengths as a column: one, broadcast, divided by the box lengths. -/
theorem v10_eq (c : Dev nD) :
    (V (F := Ideal) m c main_v10 : S3x1.Idx → EReal)
      = shapeCast S3x1
          (Host.divf (broadcastInDim S3 ![] bcast_S_S3 (constant (F := Ideal) S_ .f32 0x3F800000#32))
            (m ((c : Thread nD τ).loc main_arg1) : S3.Idx → EReal) : S3.Idx → EReal) shapeCasts_S3_S3x1 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The cutoff as a one-by-one array. -/
theorem v11_eq (c : Dev nD) :
    (V (F := Ideal) m c main_v11 : S1x1.Idx → EReal)
      = shapeCast S1x1 (m ((c : Thread nD τ).loc main_arg2) : S_.Idx → EReal) shapeCasts_S_S1x1 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-! ## The five arrays read at an index -/

/-- The start index the two gathers read for pair `p` at end `e` of the pair list: the pair list's word there. -/
theorem startIdx_apply (pairs : IVec S33550336x2 32) (o : Nat)
    (hs : S33550336x2.Slices ![0, o] S33550336x1) (e : Fin 2) (he : e.val = o) (p : Fin 33550336) :
    broadcastInDim S33550336x1 ![0] bcast_S33550336_S33550336x1_0
        (shapeCast S33550336 (extractStridedSlice S33550336x1 ![0, o] pairs hs) shapeCasts_S33550336x1_S33550336)
        (ix2 p (0 : Fin 1))
      = pairs (ix2 p e) := by
  rw [broadcastInDim_a_a1_apply (by decide), shapeCast_a1_a_apply,
    slice2_axis1_apply o pairs hs p (0 : Fin 1) e (by rw [he]; rfl)]

/-- A clamped start index whose word is the pair list's at `(p, e)` is the atom pair `p` names at end `e`. -/
theorem atom_of_eq (pairs : IVec S33550336x2 32) (idx : IVec S33550336x1 32) (p : Fin 33550336) (e : Fin 2)
    (h : idx (ix2 p (0 : Fin 1)) = pairs (ix2 p e)) :
    (⟨min (idx (ix2 p (0 : Fin 1))).toInt.toNat (8192 - 1), by omega⟩ : Fin 8192) = Cert.Spec.atom pairs p e :=
  Fin.ext (congrArg (fun w : BitVec 32 => min w.toInt.toNat (8192 - 1)) h)

/-- Row `k` of the first atoms' coordinates at pair `p`: coordinate `k` of the atom the pair names first. -/
theorem v5_apply (c : Dev nD) (k : Fin 3) (p : Fin 33550336) :
    (V (F := Ideal) m c main_v5 : S3x33550336.Idx → EReal) (ix2 k p)
      = (m ((c : Thread nD τ).loc main_arg0) : S8192x3.Idx → EReal)
          (ix2 (Cert.Spec.atom (m ((c : Thread nD τ).loc main_arg3) : IVec S33550336x2 32) p 0) k) := by
  rw [v5_eq, Idealize.ShloMosaic.HostIdxCols.gather_cols_apply (by decide) _ rfl rfl rfl rfl rfl rfl rfl,
    transpose_ix2_apply]
  exact congrArg (fun a : Fin 8192 => (m ((c : Thread nD τ).loc main_arg0) : S8192x3.Idx → EReal) (ix2 a k))
    (atom_of_eq _ _ p 0 (startIdx_apply _ 0 _ 0 rfl p))

/-- Row `k` of the second atoms' coordinates at pair `p`: coordinate `k` of the atom the pair names second. -/
theorem v6_apply (c : Dev nD) (k : Fin 3) (p : Fin 33550336) :
    (V (F := Ideal) m c main_v6 : S3x33550336.Idx → EReal) (ix2 k p)
      = (m ((c : Thread nD τ).loc main_arg0) : S8192x3.Idx → EReal)
          (ix2 (Cert.Spec.atom (m ((c : Thread nD τ).loc main_arg3) : IVec S33550336x2 32) p 1) k) := by
  rw [v6_eq, Idealize.ShloMosaic.HostIdxCols.gather_cols_apply (by decide) _ rfl rfl rfl rfl rfl rfl rfl,
    transpose_ix2_apply]
  exact congrArg (fun a : Fin 8192 => (m ((c : Thread nD τ).loc main_arg0) : S8192x3.Idx → EReal) (ix2 a k))
    (atom_of_eq _ _ p 1 (startIdx_apply _ 1 _ 1 rfl p))

/-- The box lengths' column at row `k`: box length `k`. -/
theorem v7_apply (c : Dev nD) (k : Fin 3) :
    (V (F := Ideal) m c main_v7 : S3x1.Idx → EReal) (ix2 k (0 : Fin 1))
      = (m ((c : Thread nD τ).loc main_arg1) : S3.Idx → EReal) (ix1 k) := by
  rw [v7_eq, shapeCast_a_a1_apply]

/-- The reciprocal box lengths' column at row `k`: one divided by box length `k`. -/
theorem v10_apply (c : Dev nD) (k : Fin 3) :
    (V (F := Ideal) m c main_v10 : S3x1.Idx → EReal) (ix2 k (0 : Fin 1))
      = Ideal.div (Ideal.ofBits .f32 0x3F800000#32) ((m ((c : Thread nD τ).loc main_arg1) : S3.Idx → EReal) (ix1 k)) := by
  rw [v10_eq, shapeCast_a_a1_apply]
  rfl

/-- The one-by-one cutoff array's element: the cutoff. -/
theorem v11_apply (c : Dev nD) :
    (V (F := Ideal) m c main_v11 : S1x1.Idx → EReal) (ix2 (0 : Fin 1) (0 : Fin 1))
      = (m ((c : Thread nD τ).loc main_arg2) : S_.Idx → EReal) ix0 := by
  rw [v11_eq, shapeCast_nil_11_apply]

end Cert.KernelIdeal.HostVals

end
-- ==== Proof.KICover.lean ====
import proofs.«408253_j46969762349284_3_alg».proof.Proof.KIDat
import proofs.«408253_j46969762349284_3_alg».proof.Proof.KILocal
import proofs.«408253_j46969762349284_3_alg».proof.Proof.Gen.KernelIdeal.Points
import Idealize.ShloMosaic.Lib.Pipeline.Value
import Idealize.ShloMosaic.Lib.ValueIdx
import Idealize.ShloMosaic.Lib.ValueLayout

/-!
# The mask array is covered by the blocks written back, and the host's reading of it

The region's result is the mask array `[1, 33550336]`: one word per pair, `1` when the pair is near and `0`
otherwise.  The 256 grid points write it back in blocks of 131,072 lanes, point `t` the lanes from `131072 t` on
(the last point only what is left of the array), so lane `l` lies in the block of point `l / 131072`: every index
of the array is written back by some point.

After the region the host reads the array back into a one-bit mask: it flattens it to `[33550336]` and compares
each word, signed, with zero.  A word that is the widening of one bit is positive exactly when that bit is set, so
the comparison gives the bit back.
-/

noncomputable section

namespace Cert.KernelIdeal.Cover

open Cert.KernelIdeal Cert.KernelIdeal.Gen Idealize.ShloMosaic Idealize.ShloMosaic.TcCoe Idealize.ShloMosaic.ValueIdx
open Idealize.SL.Sem
open Idealize.ShloMosaic.Pipeline (Dat)

/-! ## The cover -/

/-- An index of the mask array is in the block point `t` writes back exactly when its lane is one of the
    `min 131072 (33550336 − 131072 t)` lanes from `131072 t` on. -/
theorem mem_blk (t : Fin cfg0.N) (i : S1x33550336.Idx) :
    i ∈ ((cfg0.win 5).blk t).view.set
      ↔ t.val * 131072 ≤ (i 1 : Nat) ∧ (i 1 : Nat) < t.val * 131072 + min 131072 (33550336 - t.val * 131072) := by
  show i ∈ ((View.whole main_v12).slice ((cfg0.win 5).rect t)).set ↔ _
  rw [View.set_slice_whole, Rect.mem_set_unit]
  have h0 : (i 0 : Nat) < 1 := (i 0).isLt
  constructor
  · intro h
    have h1 := h 1
    rw [Local.index5_lanes t, Local.xsize5_lanes t] at h1
    exact h1
  · intro h a
    match a with
    | ⟨0, _⟩ =>
      show (cfg0.win 5).index t 0 * (cfg0.win 5).size 0 ≤ (i 0 : Nat)
        ∧ (i 0 : Nat) < (cfg0.win 5).index t 0 * (cfg0.win 5).size 0 + (cfg0.win 5).xsize (cfg0.grid.coords t) 0
      rw [Local.index5_rows t, Local.xsize5_rows t]
      omega
    | ⟨1, _⟩ =>
      show (cfg0.win 5).index t 1 * (cfg0.win 5).size 1 ≤ (i 1 : Nat)
        ∧ (i 1 : Nat) < (cfg0.win 5).index t 1 * (cfg0.win 5).size 1 + (cfg0.win 5).xsize (cfg0.grid.coords t) 1
      rw [Local.index5_lanes t, Local.xsize5_lanes t]
      exact h

/-- Lane `l` of the mask array lies in the block of point `l / 131072`, which is written back. -/
theorem cover_idx (i : S1x33550336.Idx) :
    ∃ t : Fin cfg0.N, (cfg0.win 5).flush t = true ∧ i ∈ ((cfg0.win 5).blk t).view.set := by
  have h1 : (i 1 : Nat) < 33550336 := (i 1).isLt
  have hN : cfg0.N = 256 := N_0
  refine ⟨⟨(i 1 : Nat) / 131072, by rw [hN]; omega⟩, flush0_5 _, ?_⟩
  rw [mem_blk]
  show (i 1 : Nat) / 131072 * 131072 ≤ (i 1 : Nat)
    ∧ (i 1 : Nat) < (i 1 : Nat) / 131072 * 131072 + min 131072 (33550336 - (i 1 : Nat) / 131072 * 131072)
  omega

/-- Every index of the mask array `[1, 33550336]` lies in the block some grid point writes back: point
    `lane / 131072`. -/
theorem cover (c : Dev nD) :
    ∀ i : ((cfg0.win 5).arr.view.loc (c.tc : Thread nD τ)).2.ty.Idx,
      ∃ t : Fin cfg0.N, (cfg0.win 5).flush t = true ∧ i ∈ ((cfg0.win 5).blk t).view.set :=
  fun i => cover_idx i

/-! ## The host's reading of the mask array -/

/-- A word that is 0 or 1 is positive exactly when it is 1. -/
theorem sgt_widen (b : BitVec 1) : IntOp.cmpi .sgt (b.setWidth 32) 0#32 = b := by
  rcases BitVec.eq_zero_or_eq_one b with rfl | rfl <;> decide

/-- The host's reading of the mask array back into a mask: the array flattened `[1, P] → [P]` and compared,
    signed, with zero, gives back the bit each word widens. -/
theorem mask_of_arr (out : S1x33550336.Idx → BitVec 32) (M : Fin 33550336 → BitVec 1)
    (h : ∀ p : Fin 33550336, out (ix2 (0 : Fin 1) p) = (M p).setWidth 32) :
    cmpi .sgt (shapeCast S33550336 out shapeCasts_S1x33550336_S33550336)
        (broadcastInDim S33550336 ![] bcast_S_S33550336 (constantI S_ 32 0#32))
      = fun i => M (i 0) := by
  funext i
  obtain ⟨p, rfl⟩ : ∃ p : Fin 33550336, i = ix1 p := ⟨i 0, eq_ix1 i⟩
  show IntOp.cmpi .sgt (shapeCast S33550336 out shapeCasts_S1x33550336_S33550336 (ix1 p)) 0#32 = M p
  rw [shapeCast_1a_a_apply, h p, sgt_widen]

end Cert.KernelIdeal.Cover

end
-- ==== Proof.KIFinal.lean ====
/-
  The mask array the neighbour kernel's pipeline leaves, index by index.

  At grid point t the write-back moves the lanes of the mask block that lie inside the array: lane j stands for pair
  p = t * 131072 + j.  On such a lane each atom block holds, in row k, coordinate k of the atom the pair names (the blocks
  are read off the two gathered coordinate arrays at column p), the box block and the reciprocal block hold the box
  lengths and one over them, and the cutoff block the cutoff; so the body's arithmetic at that lane is the
  specification's "pair p is near" (the product with the reciprocal inside the rounding is the quotient), widened to a
  word.  Hence what point t writes back is block t of ONE array, the widened mask; the blocks cover the array, so that
  array is what the run leaves, and comparing it with zero gives the mask back.
-/
import proofs.«408253_j46969762349284_3_alg».proof.Proof.KIDat
import proofs.«408253_j46969762349284_3_alg».proof.Proof.KILocal
import proofs.«408253_j46969762349284_3_alg».proof.Proof.KIHost
import proofs.«408253_j46969762349284_3_alg».proof.Proof.KICover
import proofs.«408253_j46969762349284_3_alg».proof.Proof.KernelPay
import proofs.«408253_j46969762349284_3_alg».proof.Proof.Spec
import Idealize.ShloMosaic.Lib.ValueIdx
import Idealize.ShloMosaic.Lib.Pipeline.Value

set_option maxRecDepth 16384

noncomputable section

namespace Cert.KernelIdeal.Final

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## One lane of the body's arithmetic -/

/-- One lane of the body's arithmetic on blocks that hold, at that lane, the two atoms' coordinates of pair p, the box
    lengths, their reciprocals and the cutoff: the specification's "pair p is near". -/
theorem near_of_blocks (x0 x1 : Vec Ideal S3x131072 .f32) (x2 x3 : Vec Ideal S3x1 .f32) (x4 : Vec Ideal S1x1 .f32)
    (A0 : Cert.Spec.SAtoms.Idx → EReal) (A1 : Cert.Spec.SBox.Idx → EReal) (A2 : Cert.Spec.SNil.Idx → EReal)
    (A3 : IVec Cert.Spec.SPairs2 32) (j : Fin 131072) (p : Fin 33550336)
    (h0 : ∀ k : Fin 3, x0 (ix2 k j) = A0 (ix2 (Cert.Spec.atom A3 p 0) k))
    (h1 : ∀ k : Fin 3, x1 (ix2 k j) = A0 (ix2 (Cert.Spec.atom A3 p 1) k))
    (h2 : ∀ k : Fin 3, x2 (ix2 k (0 : Fin 1)) = A1 (ix1 k))
    (h3 : ∀ k : Fin 3, x3 (ix2 k (0 : Fin 1)) = Ideal.div (Ideal.ofBits .f32 0x3F800000#32) (A1 (ix1 k)))
    (h4 : x4 (ix2 (0 : Fin 1) (0 : Fin 1)) = A2 ix0) :
    Ideal.cmp .olt (Ideal.sqrt (∑ k : Fin 3, Pay.col x1 x0 x2 x3 j k * Pay.col x1 x0 x2 x3 j k)) (x4 (ix2 (0 : Fin 1) (0 : Fin 1)))
      = Cert.Spec.near A0 A1 A2 A3 p := by
  have hc : ∀ k : Fin 3, Pay.col x1 x0 x2 x3 j k = Cert.Spec.image A0 A1 A3 p k := by
    intro k
    unfold Pay.col Cert.Spec.image Cert.Spec.disp
    rw [h0 k, h1 k, h2 k, h3 k, Pay.recip_round]
  unfold Cert.Spec.near
  rw [h4]
  exact congrArg (fun s => Ideal.cmp .olt (Ideal.sqrt s) (A2 ix0)) (Finset.sum_congr rfl fun k _ => by rw [hc k])

/-- The mask array after the run: entry (0, p) is "pair p is near", widened to a word. -/
def maskArr (c : Dev nD) : Buf (Elt Ideal) ((c.tc : Thread nD τ).loc main_v12) :=
  fun i => (Cert.Spec.near (m ((c.tc : Thread nD τ).loc main_arg0)) (m ((c.tc : Thread nD τ).loc main_arg1))
    (m ((c.tc : Thread nD τ).loc main_arg2)) (m ((c.tc : Thread nD τ).loc main_arg3)) ⟨(i 1).val, (i 1).isLt⟩).setWidth 32

/-! ## The blocks the body loads, read at a lane inside the array -/

/-- The first atoms' block at a lane inside the array: row k, lane j of the block at point t is the array's entry
    (k, t * 131072 + j). -/
theorem blk0_apply (c : Dev nD) (t : Fin cfg0.N) (k : Fin 3) (j : Fin 131072) (hj : t.val * 131072 + j.val < 33550336) :
    (Body.blk0 m c t : S3x131072.Idx → EReal) (ix2 k j)
      = (V (F := Ideal) m c main_v5 : S3x33550336.Idx → EReal) (ix2 k ⟨t.val * 131072 + j.val, hj⟩) := by
  have hmv : (cfg0.win 0).moved (cfg0.grid.coords t) (ix2 k j) = true := by
    rw [Window.moved_iff]
    intro a
    match a with
    | ⟨0, _⟩ => show k.val < (cfg0.win 0).xsize (cfg0.grid.coords t) 0; rw [Local.xsize0_rows t]; exact k.isLt
    | ⟨1, _⟩ =>
      show j.val < (cfg0.win 0).xsize (cfg0.grid.coords t) 1
      rw [Local.xsize0_lanes t, Local.xsize5_lanes t]; have := j.isLt; omega
  unfold Body.blk0 Window.fill
  rw [dif_pos hmv]
  unfold iblk
  show V m c main_v5 (((cfg0.win 0).blk t).view.emb _) = _
  refine congrArg (V (F := Ideal) m c main_v5) (funext fun a => Fin.ext ?_)
  match a with
  | ⟨0, _⟩ =>
    show (cfg0.win 0).index t 0 * 3 + 1 * k.val = k.val
    rw [Local.index0_rows t]; omega
  | ⟨1, _⟩ =>
    show (cfg0.win 0).index t 1 * 131072 + 1 * j.val = t.val * 131072 + j.val
    rw [Local.index0_lanes t]; omega

/-- The second atoms' block at a lane inside the array, likewise. -/
theorem blk1_apply (c : Dev nD) (t : Fin cfg0.N) (k : Fin 3) (j : Fin 131072) (hj : t.val * 131072 + j.val < 33550336) :
    (Body.blk1 m c t : S3x131072.Idx → EReal) (ix2 k j)
      = (V (F := Ideal) m c main_v6 : S3x33550336.Idx → EReal) (ix2 k ⟨t.val * 131072 + j.val, hj⟩) := by
  have hmv : (cfg0.win 1).moved (cfg0.grid.coords t) (ix2 k j) = true := by
    rw [Window.moved_iff]
    intro a
    match a with
    | ⟨0, _⟩ => show k.val < (cfg0.win 1).xsize (cfg0.grid.coords t) 0; rw [Local.xsize1_rows t]; exact k.isLt
    | ⟨1, _⟩ =>
      show j.val < (cfg0.win 1).xsize (cfg0.grid.coords t) 1
      rw [Local.xsize1_lanes t, Local.xsize5_lanes t]; have := j.isLt; omega
  unfold Body.blk1 Window.fill
  rw [dif_pos hmv]
  unfold iblk
  show V m c main_v6 (((cfg0.win 1).blk t).view.emb _) = _
  refine congrArg (V (F := Ideal) m c main_v6) (funext fun a => Fin.ext ?_)
  match a with
  | ⟨0, _⟩ =>
    show (cfg0.win 1).index t 0 * 3 + 1 * k.val = k.val
    rw [Local.index1_rows t]; omega
  | ⟨1, _⟩ =>
    show (cfg0.win 1).index t 1 * 131072 + 1 * j.val = t.val * 131072 + j.val
    rw [Local.index1_lanes t]; omega

/-- The box block is the whole box column at every point. -/
theorem blk2_apply (c : Dev nD) (t : Fin cfg0.N) (k : Fin 3) :
    (iblk m c 2 t : S3x1.Idx → EReal) (ix2 k (0 : Fin 1))
      = (V (F := Ideal) m c main_v7 : S3x1.Idx → EReal) (ix2 k (0 : Fin 1)) := by
  unfold iblk
  show V m c main_v7 (((cfg0.win 2).blk t).view.emb _) = _
  refine congrArg (V (F := Ideal) m c main_v7) (funext fun a => Fin.ext ?_)
  match a with
  | ⟨0, _⟩ => show 0 * 3 + 1 * k.val = k.val; omega
  | ⟨1, _⟩ => show 0 * 1 + 1 * 0 = 0; rfl

/-- The reciprocal box block is the whole reciprocal column at every point. -/
theorem blk3_apply (c : Dev nD) (t : Fin cfg0.N) (k : Fin 3) :
    (iblk m c 3 t : S3x1.Idx → EReal) (ix2 k (0 : Fin 1))
      = (V (F := Ideal) m c main_v10 : S3x1.Idx → EReal) (ix2 k (0 : Fin 1)) := by
  unfold iblk
  show V m c main_v10 (((cfg0.win 3).blk t).view.emb _) = _
  refine congrArg (V (F := Ideal) m c main_v10) (funext fun a => Fin.ext ?_)
  match a with
  | ⟨0, _⟩ => show 0 * 3 + 1 * k.val = k.val; omega
  | ⟨1, _⟩ => show 0 * 1 + 1 * 0 = 0; rfl

/-- The cutoff block is the one-by-one cutoff array at every point. -/
theorem blk4_apply (c : Dev nD) (t : Fin cfg0.N) :
    (iblk m c 4 t : S1x1.Idx → EReal) (ix2 (0 : Fin 1) (0 : Fin 1))
      = (V (F := Ideal) m c main_v11 : S1x1.Idx → EReal) (ix2 (0 : Fin 1) (0 : Fin 1)) := by
  unfold iblk
  show V m c main_v11 (((cfg0.win 4).blk t).view.emb _) = _
  refine congrArg (V (F := Ideal) m c main_v11) (funext fun a => Fin.ext ?_)
  match a with
  | ⟨0, _⟩ => show 0 * 1 + 1 * 0 = 0; rfl
  | ⟨1, _⟩ => show 0 * 1 + 1 * 0 = 0; rfl

/-- What the body leaves at a lane inside the array: "the pair of that lane is near", widened. -/
theorem after_apply (c : Dev nD) (t : Fin cfg0.N) (j : Fin 131072) (hj : t.val * 131072 + j.val < 33550336) :
    Body.maskOut (Body.blk0 m c t) (Body.blk1 m c t) (iblk m c 2 t) (iblk m c 3 t) (iblk m c 4 t) (ix2 (0 : Fin 1) j)
      = (Cert.Spec.near (m ((c.tc : Thread nD τ).loc main_arg0)) (m ((c.tc : Thread nD τ).loc main_arg1))
          (m ((c.tc : Thread nD τ).loc main_arg2)) (m ((c.tc : Thread nD τ).loc main_arg3)) ⟨t.val * 131072 + j.val, hj⟩).setWidth 32 := by
  refine (Local.maskOut_apply (Body.blk0 m c t) (Body.blk1 m c t) (iblk m c 2 t) (iblk m c 3 t) (iblk m c 4 t) j).trans ?_
  refine congrArg (BitVec.setWidth 32) ?_
  exact near_of_blocks (Body.blk0 m c t) (Body.blk1 m c t) (iblk m c 2 t) (iblk m c 3 t) (iblk m c 4 t)
    (m ((c.tc : Thread nD τ).loc main_arg0)) (m ((c.tc : Thread nD τ).loc main_arg1))
    (m ((c.tc : Thread nD τ).loc main_arg2)) (m ((c.tc : Thread nD τ).loc main_arg3)) j ⟨t.val * 131072 + j.val, hj⟩
    (fun k => (blk0_apply m c t k j hj).trans (HostVals.v5_apply m c k _))
    (fun k => (blk1_apply m c t k j hj).trans (HostVals.v6_apply m c k _))
    (fun k => (blk2_apply m c t k).trans (HostVals.v7_apply m c k))
    (fun k => (blk3_apply m c t k).trans (HostVals.v10_apply m c k))
    ((blk4_apply m c t).trans (HostVals.v11_apply m c))

/-! ## The write-back -/

/-- WHAT POINT t WRITES BACK is block t of the mask array: the lanes the write-back moves are the lanes inside the
    array, and there the body left the mask of the pair the lane stands for. -/
theorem flushed_eq (c : Dev nD) (t : Fin cfg0.N) :
    (Val.vdats m 0 c).flushed 5 t = ((cfg0.win 5).blk t).view.read (Elt Ideal) (maskArr m c) := by
  funext y
  show (Val.vdats m 0 c).after 5 t ((cfg0.win 5).xinj (cfg0.grid.coords t) y) = maskArr m c (((cfg0.win 5).blk t).view.emb y)
  rw [Val.vafter5]
  have hy0 : (y 0).val < (cfg0.win 5).xsize (cfg0.grid.coords t) 0 := (y 0).isLt
  have hy1 : (y 1).val < (cfg0.win 5).xsize (cfg0.grid.coords t) 1 := (y 1).isLt
  rw [Local.xsize5_rows t] at hy0
  rw [Local.xsize5_lanes t] at hy1
  have hj : (y 1).val < 131072 := by omega
  have hp : t.val * 131072 + (y 1).val < 33550336 := by omega
  have hx : (cfg0.win 5).xinj (cfg0.grid.coords t) y = ix2 (0 : Fin 1) (⟨(y 1).val, hj⟩ : Fin 131072) := by
    funext a
    apply Fin.ext
    match a with
    | ⟨0, _⟩ => show (y 0).val = 0; omega
    | ⟨1, _⟩ => rfl
  rw [hx]
  refine (after_apply m c t ⟨(y 1).val, hj⟩ hp).trans ?_
  unfold maskArr
  refine congrArg (fun p => (Cert.Spec.near (m ((c.tc : Thread nD τ).loc main_arg0)) (m ((c.tc : Thread nD τ).loc main_arg1))
    (m ((c.tc : Thread nD τ).loc main_arg2)) (m ((c.tc : Thread nD τ).loc main_arg3)) p).setWidth 32) (Fin.ext ?_)
  show t.val * 131072 + (y 1).val = (cfg0.win 5).index t 1 * 131072 + 1 * (y 1).val
  rw [Local.index5_lanes t]; omega

/-! ## From blocks to the array -/

/-- THE MASK ARRAY after the run: every write-back writes its block of the one array, and the blocks cover it. -/
theorem final_mask (c : Dev nD) : (Val.vdats m 0 c).arrAt 5 cfg0.N = maskArr m c :=
  Pipeline.Dat.arrAt_eq_of_cover (dat := Val.vdats m 0 c) 5 (maskArr m c) (fun t _ => flushed_eq m c t) (Cover.cover c)

/-- The flattened mask array compared with zero is the specification's mask. -/
theorem mask_of_final (c : Dev nD) :
    cmpi .sgt (shapeCast S33550336 ((Val.vdats m 0 c).arrAt 5 cfg0.N) shapeCasts_S1x33550336_S33550336)
        (broadcastInDim S33550336 ![] bcast_S_S33550336 (constantI S_ 32 0#32))
      = Cert.Spec.mask (m ((c.tc : Thread nD τ).loc main_arg0)) (m ((c.tc : Thread nD τ).loc main_arg1))
          (m ((c.tc : Thread nD τ).loc main_arg2)) (m ((c.tc : Thread nD τ).loc main_arg3)) := by
  rw [final_mask]
  exact Cover.mask_of_arr (maskArr m c)
    (fun p => Cert.Spec.near (m ((c.tc : Thread nD τ).loc main_arg0)) (m ((c.tc : Thread nD τ).loc main_arg1))
      (m ((c.tc : Thread nD τ).loc main_arg2)) (m ((c.tc : Thread nD τ).loc main_arg3)) p)
    (fun p => rfl)

end Cert.KernelIdeal.Final

end
-- ==== Proof.KIVals.lean ====
/-
  What the neighbour program leaves in its two result buffers at the ideal instance, as the specification's functions
  of the four arguments: the pair list with the pairs that are not near replaced by -1, and the number of near pairs;
  the arguments end as they were.
-/
import proofs.«408253_j46969762349284_3_alg».proof.Proof.KIRun
import proofs.«408253_j46969762349284_3_alg».proof.Proof.KITail
import proofs.«408253_j46969762349284_3_alg».proof.Proof.KIFinal

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The mask of the launch's arguments on core `c`. -/
abbrev nearMask (c : Dev nD) : IVec Cert.Spec.SPairs 1 :=
  Cert.Spec.mask (m ((c.tc : Thread nD τ).loc main_arg0)) (m ((c.tc : Thread nD τ).loc main_arg1))
    (m ((c.tc : Thread nD τ).loc main_arg2)) (m ((c.tc : Thread nD τ).loc main_arg3))

theorem run_vals : θ_run defs (onTc (τ := τ) (main (F := Ideal))) ⟨m, fun _ => 0, ρ⟩ (fun r => ∀ c : Dev nD,
      r.2.mem ((c.tc : Thread nD τ).loc main_v17)
        = Cert.Spec.kept bcast_S33550336_S33550336x1_0 bcast_S33550336x1_S33550336x2_0_1 bcast_S_S33550336x2 (nearMask m c)
            (m ((c.tc : Thread nD τ).loc main_arg3))
      ∧ r.2.mem ((c.tc : Thread nD τ).loc main_v19) = Cert.Spec.count natLt_1_32 reducesTo_S33550336_S_d0 h_S_ (nearMask m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v17 (Pipeline.mem_restRefs_of main_v17 (by decide) (by decide))).trans
        (Tail.tail_pairs m (vdats m) c (nearMask m c) (Final.mask_of_final m c)),
     ((h c).2 main_v19 (Pipeline.mem_restRefs_of main_v19 (by decide) (by decide))).trans
        (Tail.tail_count m (vdats m) c (nearMask m c) (Final.mask_of_final m c)),
     ((h c).2 main_arg0 (Pipeline.mem_restRefs_of main_arg0 (by decide) (by decide))).trans (W_main_arg0 m (vdats m) c),
     ((h c).2 main_arg1 (Pipeline.mem_restRefs_of main_arg1 (by decide) (by decide))).trans (W_main_arg1 m (vdats m) c),
     ((h c).2 main_arg2 (Pipeline.mem_restRefs_of main_arg2 (by decide) (by decide))).trans (W_main_arg2 m (vdats m) c),
     ((h c).2 main_arg3 (Pipeline.mem_restRefs_of main_arg3 (by decide) (by decide))).trans (W_main_arg3 m (vdats m) c)⟩)
    (run_main m ρ)

end Cert.KernelIdeal.Val

end
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.RefValue.lean ====
/-
  The reference program's two results as the shared specification's functions of the four argument arrays.

  Under the hypothesis that every word of the pair list is non-negative as a signed integer, the reference's wrap of a
  negative index (add the table length when the word is negative) keeps the word, so each of its two row gathers reads
  the row whose number is the word read signed and clamped into the table: the specification's atom.  From there the
  program is, index by index, the specification's displacement, minimum image, squared norm, square root and comparison
  with the cutoff; its two results are the same selections and the same integer sum over that mask.
-/
import proofs.«408253_j46969762349284_3_alg».proof.Proof.Gen.ReferenceIdeal.Read
import proofs.«408253_j46969762349284_3_alg».proof.Proof.LibHostIdx2
import proofs.«408253_j46969762349284_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable [Cert.ReferenceIdeal.Facts]

/-! ## The index columns -/

/-- A non-negative word is not below zero, so the wrap's select keeps it. -/
theorem wrap_keep (w : BitVec 32) (h : 0 ≤ w.toInt) (a : BitVec 32) :
    Scalar.select (IntOp.cmpi .slt w 0#32) a w = w := by
  have h0 : IntOp.cmpi .slt w 0#32 = 0#1 := by
    have hd : decide (w.toInt < (0#32 : BitVec 32).toInt) = false :=
      decide_eq_false (by rw [BitVec.toInt_zero]; omega)
    show BitVec.ofBool (decide (w.toInt < (0#32 : BitVec 32).toInt)) = 0#1
    rw [hd]
    rfl
  rw [h0, select_zero]

/-- The column of second atoms, after the wrap: the pair list's column 1. -/
theorem col1_apply (x3 : (⟨S33550336x2, .i32⟩ : BufTy).Contents (Elt Ideal)) (p : Fin 33550336)
    (h : 0 ≤ (x3 (ix2 p (1 : Fin 2))).toInt) :
    Read.val_main_v7 (F := Ideal) x3 (ix2 p (0 : Fin 1)) = x3 (ix2 p (1 : Fin 2)) := by
  have hi : Read.idx_main_v0 (Read.idx_main_v1 (Read.idx_main_v7 (ix2 p (0 : Fin 1)))) = ix2 p (1 : Fin 2) := by
    funext a
    match a with
    | ⟨0, _⟩ => exact Fin.ext (Nat.div_one _)
    | ⟨1, _⟩ => rfl
  rw [Read.val_main_v7_apply, Read.val_main_v6_apply, Read.val_main_v3_apply, Read.val_main_v2_apply,
    Read.val_main_c_apply, Read.val_main_v1_apply, Read.val_main_v0_apply, hi]
  exact wrap_keep _ h _

/-- The column of first atoms, after the wrap: the pair list's column 0. -/
theorem col0_apply (x3 : (⟨S33550336x2, .i32⟩ : BufTy).Contents (Elt Ideal)) (p : Fin 33550336)
    (h : 0 ≤ (x3 (ix2 p (0 : Fin 2))).toInt) :
    Read.val_main_v16 (F := Ideal) x3 (ix2 p (0 : Fin 1)) = x3 (ix2 p (0 : Fin 2)) := by
  have hi : Read.idx_main_v9 (Read.idx_main_v10 (Read.idx_main_v16 (ix2 p (0 : Fin 1)))) = ix2 p (0 : Fin 2) := by
    funext a
    match a with
    | ⟨0, _⟩ => exact Fin.ext (Nat.div_one _)
    | ⟨1, _⟩ => rfl
  rw [Read.val_main_v16_apply, Read.val_main_v15_apply, Read.val_main_v12_apply, Read.val_main_v11_apply,
    Read.val_main_c_1_apply, Read.val_main_v10_apply, Read.val_main_v9_apply, hi]
  exact wrap_keep _ h _

/-! ## The two row gathers -/

/-- Two equal words name the same clamped row. -/
theorem row_congr {w w' : BitVec 32} (hw : w = w') (h1 : min w.toInt.toNat (8192 - 1) < 8192)
    (h2 : min w'.toInt.toNat (8192 - 1) < 8192) :
    (⟨min w.toInt.toNat (8192 - 1), h1⟩ : Fin 8192) = ⟨min w'.toInt.toNat (8192 - 1), h2⟩ := by
  subst hw; rfl

/-- The gather of second atoms reads the coordinates of the pair's second atom. -/
theorem gather1_apply (x0 : (⟨S8192x3, .f32⟩ : BufTy).Contents (Elt Ideal))
    (x3 : (⟨S33550336x2, .i32⟩ : BufTy).Contents (Elt Ideal)) (p : Fin 33550336) (k : Fin 3)
    (h : 0 ≤ (x3 (ix2 p (1 : Fin 2))).toInt) :
    Read.val_main_v8 (F := Ideal) x0 x3 (ix2 p k) = x0 (ix2 (Cert.Spec.atom x3 p 1) k) := by
  unfold Read.val_main_v8
  rw [HostIdx2.gather_rows_apply (N := 8192) (R := 33550336) (C := 3) (by decide)
    gather_S8192x3_S33550336x1_S33550336x3_1_0_n_n_0_1_13 rfl rfl rfl rfl rfl rfl rfl x0
    (Read.val_main_v7 (F := Ideal) x3) p k]
  exact congrArg (fun r => x0 (ix2 r k)) (row_congr (col1_apply x3 p h) _ _)

/-- The gather of first atoms reads the coordinates of the pair's first atom. -/
theorem gather0_apply (x0 : (⟨S8192x3, .f32⟩ : BufTy).Contents (Elt Ideal))
    (x3 : (⟨S33550336x2, .i32⟩ : BufTy).Contents (Elt Ideal)) (p : Fin 33550336) (k : Fin 3)
    (h : 0 ≤ (x3 (ix2 p (0 : Fin 2))).toInt) :
    Read.val_main_v17 (F := Ideal) x0 x3 (ix2 p k) = x0 (ix2 (Cert.Spec.atom x3 p 0) k) := by
  unfold Read.val_main_v17
  rw [HostIdx2.gather_rows_apply (N := 8192) (R := 33550336) (C := 3) (by decide)
    gather_S8192x3_S33550336x1_S33550336x3_1_0_n_n_0_1_13 rfl rfl rfl rfl rfl rfl rfl x0
    (Read.val_main_v16 (F := Ideal) x3) p k]
  exact congrArg (fun r => x0 (ix2 r k)) (row_congr (col0_apply x3 p h) _ _)

/-! ## Displacement and minimum image -/

/-- The displacement stage at pair `p`, axis `k`. -/
theorem disp_apply (x0 : (⟨S8192x3, .f32⟩ : BufTy).Contents (Elt Ideal))
    (x3 : (⟨S33550336x2, .i32⟩ : BufTy).Contents (Elt Ideal))
    (hnn : ∀ (p : Fin 33550336) (e : Fin 2), 0 ≤ (x3 (ix2 p e)).toInt) (p : Fin 33550336) (k : Fin 3) :
    Read.val_main_v18 (F := Ideal) x0 x3 (ix2 p k) = Cert.Spec.disp x0 x3 p k := by
  rw [Read.val_main_v18_apply, gather1_apply x0 x3 p k (hnn p 1), gather0_apply x0 x3 p k (hnn p 0)]
  rfl

/-- The box lengths broadcast over the pairs (the divisor's copy): axis `k`'s length. -/
theorem box20_apply (x1 : (⟨S3, .f32⟩ : BufTy).Contents (Elt Ideal)) (p : Fin 33550336) (k : Fin 3) :
    Read.val_main_v20 (F := Ideal) x1 (ix2 p k) = x1 (ix1 k) := by
  rw [Read.val_main_v20_apply, Read.val_main_v19_apply]
  refine congrArg x1 (funext fun a => ?_)
  match a with
  | ⟨0, _⟩ => rfl

/-- The box lengths broadcast over the pairs (the multiplier's copy): axis `k`'s length. -/
theorem box24_apply (x1 : (⟨S3, .f32⟩ : BufTy).Contents (Elt Ideal)) (p : Fin 33550336) (k : Fin 3) :
    Read.val_main_v24 (F := Ideal) x1 (ix2 p k) = x1 (ix1 k) := by
  rw [Read.val_main_v24_apply, Read.val_main_v23_apply]
  refine congrArg x1 (funext fun a => ?_)
  match a with
  | ⟨0, _⟩ => rfl

/-- The minimum-image stage at pair `p`, axis `k`. -/
theorem image_apply (x0 : (⟨S8192x3, .f32⟩ : BufTy).Contents (Elt Ideal)) (x1 : (⟨S3, .f32⟩ : BufTy).Contents (Elt Ideal))
    (x3 : (⟨S33550336x2, .i32⟩ : BufTy).Contents (Elt Ideal))
    (hnn : ∀ (p : Fin 33550336) (e : Fin 2), 0 ≤ (x3 (ix2 p e)).toInt) (p : Fin 33550336) (k : Fin 3) :
    Read.val_main_v26 (F := Ideal) x0 x1 x3 (ix2 p k) = Cert.Spec.image x0 x1 x3 p k := by
  rw [Read.val_main_v26_apply, Read.val_main_v25_apply, Read.val_main_v22_apply, Read.val_main_v21_apply,
    disp_apply x0 x3 hnn p k, box24_apply, box20_apply]
  rfl

/-! ## The mask and the two results -/

/-- The reference's mask stage is the specification's mask. -/
theorem mask_eq (x0 : (⟨S8192x3, .f32⟩ : BufTy).Contents (Elt Ideal)) (x1 : (⟨S3, .f32⟩ : BufTy).Contents (Elt Ideal))
    (x2 : (⟨S_, .f32⟩ : BufTy).Contents (Elt Ideal)) (x3 : (⟨S33550336x2, .i32⟩ : BufTy).Contents (Elt Ideal))
    (hnn : ∀ (p : Fin 33550336) (e : Fin 2), 0 ≤ (x3 (ValueIdx.ix2 p e)).toInt) :
    Read.val_main_v29 (F := Ideal) x0 x1 x2 x3 = Cert.Spec.mask x0 x1 x2 x3 := by
  funext i
  obtain ⟨p, rfl⟩ : ∃ p : Fin 33550336, i = ix1 p := ⟨i 0, eq_ix1 i⟩
  have hk : ∀ k : Fin 3, Read.idx_main_call1_v1 (ix1 p) k = ix2 p k := by
    intro k
    funext a
    match a with
    | ⟨0, _⟩ => rfl
    | ⟨1, _⟩ => rfl
  rw [Read.val_main_v29_apply, Read.val_main_v27_apply, Read.val_main_call1_v1_apply,
    Read.val_main_call1_cst_apply, Read.val_main_v28_apply]
  simp only [hk, Read.val_main_call1_v0_apply, image_apply x0 x1 x3 hnn]
  rw [Ideal.ofBits_def, Ideal.ofBits_zero_f32, zero_add]
  rfl

/-- The reference's first result: the pair list with the pairs the mask clears replaced by -1. -/
theorem out0_eq (m : (ℓ : Loc nD τ sig) → Buf (Elt Ideal) ℓ) (c : Dev nD)
    (hnn : ∀ (p : Fin 33550336) (e : Fin 2), 0 ≤ ((m ((c.tc : Thread nD τ).loc main_arg3)) (ValueIdx.ix2 p e)).toInt) :
    Value.res_out0 (F := Ideal) m c = Cert.Spec.kept bcast_S33550336_S33550336x1_0 bcast_S33550336x1_S33550336x2_0_1 bcast_S_S33550336x2
      (Cert.Spec.mask (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg3)) := by
  refine (Read.val_main_v31_eq (F := Ideal) m c).trans ?_
  unfold Read.val_main_v31 Read.val_main_call2_v0 Read.val_main_v30
  rw [mask_eq _ _ _ _ hnn]
  rfl

/-- The reference's second result: the number of pairs the mask sets. -/
theorem out1_eq (m : (ℓ : Loc nD τ sig) → Buf (Elt Ideal) ℓ) (c : Dev nD)
    (hnn : ∀ (p : Fin 33550336) (e : Fin 2), 0 ≤ ((m ((c.tc : Thread nD τ).loc main_arg3)) (ValueIdx.ix2 p e)).toInt) :
    Value.res_out1 (F := Ideal) m c = Cert.Spec.count natLt_1_32 reducesTo_S33550336_S_d0 h_S_
      (Cert.Spec.mask (m ((c.tc : Thread nD τ).loc main_arg0)) (m ((c.tc : Thread nD τ).loc main_arg1)) (m ((c.tc : Thread nD τ).loc main_arg2)) (m ((c.tc : Thread nD τ).loc main_arg3))) := by
  refine (Read.val_main_v33_eq (F := Ideal) m c).trans ?_
  unfold Read.val_main_v33 Read.val_main_v32
  rw [mask_eq _ _ _ _ hnn]
  rfl

end Cert.ReferenceIdeal.RefValue

end
-- ==== Proof.PreDecode.lean ====
/-
  Reading the precondition: the printed predicate is a conjunction of four tests, the last of which says that every
  entry of the pair list is nonnegative as a signed word.  When the predicate is all ones, so is its last conjunct; a
  conjunction by "and" over all entries that comes out one met only ones; and the entry at (p, e) is the signed
  comparison "pairs[p, e] ≥ 0", which is one exactly when the word read signed is at least zero.
-/
import proofs.«408253_j46969762349284_3_alg».proof.Pre_finite_inputs
import Idealize.ShloMosaic.Lib.StableHlo.Predicate
import Idealize.ShloMosaic.Lib.ReduceAll
import Idealize.ShloMosaic.Lib.ValueIdx

namespace Cert.PreDecode

variable [Cert.Pre_finite_inputs.Facts]
open Cert.Pre_finite_inputs Idealize.ShloMosaic

/-- The rank-0 shape has a single index. -/
instance : Subsingleton S_.Idx := ⟨fun a b => funext fun d => d.elim0⟩

/-- Under the precondition every entry of the pair list, read as a signed word, is nonnegative. -/
theorem nonneg_of_pre {F : FTy → Type} [FloatOps F] (a0 : FVec F S8192x3 .f32) (a1 : FVec F S3 .f32) (a2 : FVec F S_ .f32) (a3 : IVec S33550336x2 32)
    (h : Cert.Pre_finite_inputs.fn (F := F) a0 a1 a2 a3 = fun _ => 1#1) (p : Fin 33550336) (e : Fin 2) :
    0 ≤ (a3 (ValueIdx.ix2 p e)).toInt := by
  -- the predicate at its one index
  have h0 := congrFun h ValueIdx.ix0
  dsimp only [Cert.Pre_finite_inputs.fn, Cert.Pre_finite_inputs.fn_part1] at h0
  -- the outermost "and": keep its second operand, the test over the pair list
  have hall := (IntOp.andi_eq_one.1 h0).2
  -- every entry of the compared array is one
  have hent := Host.reduce_andi_all _ _ _ _ _ hall (ValueIdx.ix2 p e)
  -- the entry is the signed comparison of the word with zero
  have hcmp : IntOp.cmpi .sge (a3 (ValueIdx.ix2 p e)) 0#32 = 1#1 := hent
  have := IntOp.cmpi_sge.1 hcmp
  simpa using this

end Cert.PreDecode
-- ==== Proof.lean ====
/-
  A pair-list neighbour search under periodic boundaries, a Pallas kernel against its jnp reference.

  For each of 33,550,336 atom pairs (i, j) both programs form the displacement d = x[j] - x[i] of two rows of the
  coordinate table, wrap it to its minimum image w_k = d_k - L_k * rne(d_k / L_k) in a box of lengths L, and keep the pair
  when sqrt(w_0^2 + w_1^2 + w_2^2) < cutoff; they return the pair list with the dropped pairs set to -1 and the number of
  kept pairs.  The kernel gathers the two coordinate rows on the host into lane-dense [3, P] arrays, multiplies by the
  reciprocal 1 / L_k computed once on the host where the reference divides by L_k, sums the three squares down the rows
  of a block where the reference sums along a row, and leaves a 0/1 word per pair that the host turns back into the mask.

  Equal on the extended reals: L_k * rne(d_k * (1 / L_k)) = L_k * rne(d_k / L_k) for every L_k (off zero 1 / L_k is the
  inverse; at zero both products vanish), a sum of three terms does not depend on its order, and a word that is 0 or 1
  is positive exactly when it is 1.  The two programs read a NEGATIVE index differently (the reference wraps it from the
  table's end, the kernel's take clips it to row 0), so the statement carries the evident domain 0 <= pairs: on it both
  gathers read the word clamped into the table.

  The blocks of 131,072 pairs do not tile the pair axis: the last of the 256 grid points fetches and writes back a cut
  block, and what the kernel computes from the staging buffers' tails is dropped by the write-back.  The frames are
  proved for any float instance with the mask buffer left unnamed; the value run at the ideal instance names it, using
  that a lane of the mask depends on the same lane of the atom blocks only.
-/
import proofs.«408253_j46969762349284_3_alg».proof.Defs
import proofs.«408253_j46969762349284_3_alg».proof.Proof.Gen.Kernel
import proofs.«408253_j46969762349284_3_alg».proof.Proof.Gen.KernelIdeal
import proofs.«408253_j46969762349284_3_alg».proof.Proof.Gen.ReferenceIdeal
import proofs.«408253_j46969762349284_3_alg».proof.Proof.Gen.Pre_finite_inputs
import proofs.«408253_j46969762349284_3_alg».proof.Proof.Gen.ReferenceIdeal.Run
import proofs.«408253_j46969762349284_3_alg».proof.Proof.KFrame
import proofs.«408253_j46969762349284_3_alg».proof.Proof.KIFrame
import proofs.«408253_j46969762349284_3_alg».proof.Proof.KIVals
import proofs.«408253_j46969762349284_3_alg».proof.Proof.RefValue
import proofs.«408253_j46969762349284_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs, faults nowhere and keeps its arguments. -/
theorem frame_k : Cert.frame_Kernel := fun m ρ _ => Cert.Kernel.Body.frame m ρ

/-- So does the kernel read on the extended reals. -/
theorem frame_ki : Cert.frame_KernelIdeal := fun m ρ _ => Cert.KernelIdeal.Body.frame m ρ

/-- The reference is host operations only: its frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The ideal pass rewrote nothing. -/
theorem preserves : Cert.preserves_Kernel_KernelIdeal := trivial

/-- Both programs end at the specification's two functions of the arguments: the kernel by its value run, the
    reference by its run read back, where the precondition's last conjunct makes every pair index nonnegative. -/
theorem algebraic : Cert.algebraic_KernelIdeal_ReferenceIdeal := by
  intro m ρ m' ρ' hpre hagree
  have hnn : ∀ (c : Dev Cert.KernelIdeal.nD) (p : Fin 33550336) (e : Fin 2),
      0 ≤ ((m ((c.tc : Thread Cert.KernelIdeal.nD Cert.KernelIdeal.τ).loc Cert.KernelIdeal.main_arg3)) (ValueIdx.ix2 p e)).toInt :=
    fun c p e => Cert.PreDecode.nonneg_of_pre _ _ _ _ (hpre c) p e
  refine ⟨_, _, Cert.KernelIdeal.Val.run_vals m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have hnn' : ∀ (p : Fin 33550336) (e : Fin 2),
        0 ≤ ((m' ((c.tc : Thread Cert.ReferenceIdeal.nD Cert.ReferenceIdeal.τ).loc Cert.ReferenceIdeal.main_arg3)) (ValueIdx.ix2 p e)).toInt := by
      rw [(hagree c).2.2.2]; exact hnn c
    refine (Cert.ReferenceIdeal.RefValue.out0_eq m' c hnn').trans ?_
    rw [(hagree c).1, (hagree c).2.1, (hagree c).2.2.1, (hagree c).2.2.2]
  · have hnn' : ∀ (p : Fin 33550336) (e : Fin 2),
        0 ≤ ((m' ((c.tc : Thread Cert.ReferenceIdeal.nD Cert.ReferenceIdeal.τ).loc Cert.ReferenceIdeal.main_arg3)) (ValueIdx.ix2 p e)).toInt := by
      rw [(hagree c).2.2.2]; exact hnn c
    refine (Cert.ReferenceIdeal.RefValue.out1_eq m' c hnn').trans ?_
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
